-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x40 : Shape := ⟨2, ![16, 40]⟩
abbrev S40 : Shape := ⟨1, ![40]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x16 : S_.BroadcastsInDim S512x16 (![] : Fin 0 → Fin S512x16.rank)
  reducesTo_S512x16_S_d0_1 : S512x16.ReducesTo [0, 1] S_
  bcast_S_S16 : S_.BroadcastsInDim S16 (![] : Fin 0 → Fin S16.rank)
  reducesTo_S16_S_d0 : S16.ReducesTo [0] S_
  bcast_S_S16x40 : S_.BroadcastsInDim S16x40 (![] : Fin 0 → Fin S16x40.rank)
  reducesTo_S16x40_S_d0_1 : S16x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S40 .f32) (main_v13 : IVec S_ 1) (main_v16 : IVec S16x40 1) : IVec S_ 1 :=
  let main_c_5 : IVec S_ 1 := constantI S_ 1 1#1
  let main_v17 : IVec S_ 1 := (fun x v => Host.reduce IntOp.andi x v reducesTo_S16x40_S_d0_1 h_S_) main_v16 main_c_5
  let main_v18 : IVec S_ 1 := andi main_v13 main_v17
  let main_v19 : FVec F S40 .f32 := Host.absf main_arg5
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  main_v23

def fn {F : FTy → Type} [FloatOps F] (main_arg0 : FVec F S100000x512 .f32) (main_arg1 : IVec S2x3200000 32) (main_arg2 : FVec F S512x16 .f32) (main_arg3 : FVec F S16 .f32) (main_arg4 : FVec F S16x40 .f32) (main_arg5 : FVec F S40 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x16 .f32 := Host.absf main_arg2
  let main_cst_0 : FVec F S_ .f32 := constant S_ .f32 0x7F800000#32
  let main_v5 : FVec F S512x16 .f32 := broadcastInDim S512x16 ![] bcast_S_S512x16 main_cst_0
  let main_v6 : IVec S512x16 1 := cmpf .olt main_v4 main_v5
  let main_c_1 : IVec S_ 1 := constantI S_ 1 1#1
  let main_v7 : IVec S_ 1 := (fun x v => Host.reduce IntOp.andi x v reducesTo_S512x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x40 .f32 := Host.absf main_arg4
  let main_cst_4 : FVec F S_ .f32 := constant S_ .f32 0x7F800000#32
  let main_v15 : FVec F S16x40 .f32 := broadcastInDim S16x40 ![] bcast_S_S16x40 main_cst_4
  let main_v16 : IVec S16x40 1 := cmpf .olt main_v14 main_v15
  fn_part1 (F := F) main_arg5 main_v13 main_v16
-- ==== Kernel.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x40 : Shape := ⟨2, ![16, 40]⟩
abbrev S40 : Shape := ⟨1, ![40]⟩
abbrev S1x3200000 : Shape := ⟨2, ![1, 3200000]⟩
abbrev S3200000 : Shape := ⟨1, ![3200000]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S2000x512 : Shape := ⟨2, ![2000, 512]⟩
abbrev S2000x16 : Shape := ⟨2, ![2000, 16]⟩
abbrev S3300000x16 : Shape := ⟨2, ![3300000, 16]⟩
abbrev S100000x40 : Shape := ⟨2, ![100000, 40]⟩
abbrev S5000x16 : Shape := ⟨2, ![5000, 16]⟩
abbrev S5000x40 : Shape := ⟨2, ![5000, 40]⟩
abbrev S1x16 : Shape := ⟨2, ![1, 16]⟩
abbrev S3300000x40 : Shape := ⟨2, ![3300000, 40]⟩
abbrev S1x40 : Shape := ⟨2, ![1, 40]⟩
abbrev S5000 : Shape := ⟨1, ![5000]⟩
abbrev S5000x1 : Shape := ⟨2, ![5000, 1]⟩

abbrev nBuf : Space → Nat
  | .hbm => 81
  | .vmem => 16
  | .smem => 0
  | _ => 0

abbrev bufTy : (tb : Table) → Fin (tcTables nBuf tb) → BufTy
  | .hbm, ⟨0, _⟩ => ⟨S100000x512, .f32⟩
  | .hbm, ⟨1, _⟩ => ⟨S2x3200000, .i32⟩
  | .hbm, ⟨2, _⟩ => ⟨S512x16, .f32⟩
  | .hbm, ⟨3, _⟩ => ⟨S16, .f32⟩
  | .hbm, ⟨4, _⟩ => ⟨S16x40, .f32⟩
  | .hbm, ⟨5, _⟩ => ⟨S40, .f32⟩
  | .hbm, ⟨6, _⟩ => ⟨S1x3200000, .i32⟩
  | .hbm, ⟨7, _⟩ => ⟨S3200000, .i32⟩
  | .hbm, ⟨8, _⟩ => ⟨S1x3200000, .i32⟩
  | .hbm, ⟨9, _⟩ => ⟨S3200000, .i32⟩
  | .hbm, ⟨10, _⟩ => ⟨S100000, .i32⟩
  | .hbm, ⟨11, _⟩ => ⟨S3300000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S3300000, .i32⟩
  | .hbm, ⟨29, _⟩ => ⟨S3300000, .i1⟩
  | .hbm, ⟨30, _⟩ => ⟨S_, .i32⟩
  | .hbm, ⟨31, _⟩ => ⟨S3300000, .i32⟩
  | .hbm, ⟨32, _⟩ => ⟨S3300000, .i32⟩
  | .hbm, ⟨33, _⟩ => ⟨S3300000, .i32⟩
  | .hbm, ⟨34, _⟩ => ⟨S3300000x1, .i32⟩
  | .hbm, ⟨35, _⟩ => ⟨S3300000, .f32⟩
  | .hbm, ⟨36, _⟩ => ⟨S_, .i32⟩
  | .hbm, ⟨37, _⟩ => ⟨S3300000, .i32⟩
  | .hbm, ⟨38, _⟩ => ⟨S3300000, .i1⟩
  | .hbm, ⟨39, _⟩ => ⟨S_, .i32⟩
  | .hbm, ⟨40, _⟩ => ⟨S3300000, .i32⟩
  | .hbm, ⟨41, _⟩ => ⟨S3300000, .i32⟩
  | .hbm, ⟨42, _⟩ => ⟨S3300000, .i32⟩
  | .hbm, ⟨43, _⟩ => ⟨S3300000x1, .i32⟩
  | .hbm, ⟨44, _⟩ => ⟨S3300000, .f32⟩
  | .hbm, ⟨45, _⟩ => ⟨S3300000, .f32⟩
  | .hbm, ⟨46, _⟩ => ⟨S100000x16, .f32⟩
  | .hbm, ⟨47, _⟩ => ⟨S_, .i32⟩
  | .hbm, ⟨48, _⟩ => ⟨S3300000, .i32⟩
  | .hbm, ⟨49, _⟩ => ⟨S3300000, .i1⟩
  | .hbm, ⟨50, _⟩ => ⟨S_, .i32⟩
  | .hbm, ⟨51, _⟩ => ⟨S3300000, .i32⟩
  | .hbm, ⟨52, _⟩ => ⟨S3300000, .i32⟩
  | .hbm, ⟨53, _⟩ => ⟨S3300000, .i32⟩
  | .hbm, ⟨54, _⟩ => ⟨S3300000x1, .i32⟩
  | .hbm, ⟨55, _⟩ => ⟨S3300000x16, .f32⟩
  | .hbm, ⟨56, _⟩ => ⟨S3300000x1, .f32⟩
  | .hbm, ⟨57, _⟩ => ⟨S3300000x16, .f32⟩
  | .hbm, ⟨58, _⟩ => ⟨S3300000x16, .f32⟩
  | .hbm, ⟨59, _⟩ => ⟨S_, .f32⟩
  | .hbm, ⟨60, _⟩ => ⟨S100000x16, .f32⟩
  | .hbm, ⟨61, _⟩ => ⟨S3300000x1, .i32⟩
  | .hbm, ⟨62, _⟩ => ⟨S100000x16, .f32⟩
  | .hbm, ⟨63, _⟩ => ⟨S100000x40, .f32⟩
  | .hbm, ⟨64, _⟩ => ⟨S_, .i32⟩
  | .hbm, ⟨65, _⟩ => ⟨S3300000, .i32⟩
  | .hbm, ⟨66, _⟩ => ⟨S3300000, .i1⟩
  | .hbm, ⟨67, _⟩ => ⟨S_, .i32⟩
  | .hbm, ⟨68, _⟩ => ⟨S3300000, .i32⟩
  | .hbm, ⟨69, _⟩ => ⟨S3300000, .i32⟩
  | .hbm, ⟨70, _⟩ => ⟨S3300000, .i32⟩
  | .hbm, ⟨71, _⟩ => ⟨S3300000x1, .i32⟩
  | .hbm, ⟨72, _⟩ => ⟨S3300000x40, .f32⟩
  | .hbm, ⟨73, _⟩ => ⟨S3300000x1, .f32⟩
  | .hbm, ⟨74, _⟩ => ⟨S3300000x40, .f32⟩
  | .hbm, ⟨75, _⟩ => ⟨S3300000x40, .f32⟩
  | .hbm, ⟨76, _⟩ => ⟨S_, .f32⟩
  | .hbm, ⟨77, _⟩ => ⟨S100000x40, .f32⟩
  | .hbm, ⟨78, _⟩ => ⟨S3300000x1, .i32⟩
  | .hbm, ⟨79, _⟩ => ⟨S100000x40, .f32⟩
  | .hbm, ⟨80, _⟩ => ⟨S100000x40, .f32⟩
  | .local _ .vmem, ⟨0, _⟩ => ⟨S2000x512, .f32⟩
  | .local _ .vmem, ⟨1, _⟩ => ⟨S2000x512, .f32⟩
  | .local _ .vmem, ⟨2, _⟩ => ⟨S512x16, .f32⟩
  | .local _ .vmem, ⟨3, _⟩ => ⟨S2000x16, .f32⟩
  | .local _ .vmem, ⟨4, _⟩ => ⟨S2000x16, .f32⟩
  | .local _ .vmem, ⟨5, _⟩ => ⟨S5000x16, .f32⟩
  | .local _ .vmem, ⟨6, _⟩ => ⟨S5000x16, .f32⟩
  | .local _ .vmem, ⟨7, _⟩ => ⟨S16, .f32⟩
  | .local _ .vmem, ⟨8, _⟩ => ⟨S16x40, .f32⟩
  | .local _ .vmem, ⟨9, _⟩ => ⟨S5000x40, .f32⟩
  | .local _ .vmem, ⟨10, _⟩ => ⟨S5000x40, .f32⟩
  | .local _ .vmem, ⟨11, _⟩ => ⟨S5000x40, .f32⟩
  | .local _ .vmem, ⟨12, _⟩ => ⟨S5000x40, .f32⟩
  | .local _ .vmem, ⟨13, _⟩ => ⟨S40, .f32⟩
  | .local _ .vmem, ⟨14, _⟩ => ⟨S5000x40, .f32⟩
  | .local _ .vmem, ⟨15, _⟩ => ⟨S5000x40, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_c_9 : Ref sig .tc := ⟨.hbm, 64, rfl⟩
abbrev main_v45 : Ref sig .tc := ⟨.hbm, 65, rfl⟩
abbrev main_v46 : Ref sig .tc := ⟨.hbm, 66, rfl⟩
abbrev main_c_10 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_11 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S16x40 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x40 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x40 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S40 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x40 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S512x16_S512x16_0_0 : ∀ a, (![0, 0] : Fin 2 → Nat) a + S512x16.size a ≤ S512x16.size a
  h_S512x16 : 0 < S512x16.numel
  inb_S2000x16_S2000x16_0_0 : ∀ a, (![0, 0] : Fin 2 → Nat) a + S2000x16.size a ≤ S2000x16.size a
  h_S2000x16 : 0 < S2000x16.numel
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  inb_S16_S16_0 : ∀ a, (![0] : Fin 1 → Nat) a + S16.size a ≤ S16.size a
  h_S16 : 0 < S16.numel
  inb_S5000x16_S5000x16_0_0 : ∀ a, (![0, 0] : Fin 2 → Nat) a + S5000x16.size a ≤ S5000x16.size a
  h_S5000x16 : 0 < S5000x16.numel
  shapeCasts_S5000x16_S5000x16 : S5000x16.ShapeCasts S5000x16
  shapeCasts_S16_S1x16 : S16.ShapeCasts S1x16
  broadcasts_S1x16_S5000x16 : S1x16.Broadcasts S5000x16
  inb_S16x40_S16x40_0_0 : ∀ a, (![0, 0] : Fin 2 → Nat) a + S16x40.size a ≤ S16x40.size a
  h_S16x40 : 0 < S16x40.numel
  inb_S5000x40_S5000x40_0_0 : ∀ a, (![0, 0] : Fin 2 → Nat) a + S5000x40.size a ≤ S5000x40.size a
  h_S5000x40 : 0 < S5000x40.numel
  bcast_S3300000x1_S3300000x40_0_1 : S3300000x1.BroadcastsInDim S3300000x40 (![0, 1] : Fin 2 → Fin S3300000x40.rank)
  bcast_S_S100000x40 : S_.BroadcastsInDim S100000x40 (![] : Fin 0 → Fin S100000x40.rank)
  inb_S40_S40_0 : ∀ a, (![0] : Fin 1 → Nat) a + S40.size a ≤ S40.size a
  h_S40 : 0 < S40.numel
  shapeCasts_S5000x40_S5000x40 : S5000x40.ShapeCasts S5000x40
  shapeCasts_S40_S1x40 : S40.ShapeCasts S1x40
  broadcasts_S1x40_S5000x40 : S1x40.Broadcasts S5000x40
  reduces_S5000x40_S5000 : S5000x40.Reduces [1] S5000
  shapeCasts_S5000_S5000x1 : S5000.ShapeCasts S5000x1
  broadcasts_S5000x1_S5000x40 : S5000x1.Broadcasts S5000x40
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S2000x512_S512x16_S2000x16_1_0_0_1_n_n_wf : DotDims.WF S2000x512 S512x16 S2000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S5000x16_S16x40_S5000x40_1_0_0_1_n_n_wf : DotDims.WF S5000x16 S16x40 S5000x40 [1] [0] [0] [1] [] []
  gather_S100000x40_S3300000x1_S3300000x40_1_0_n_n_0_1_140_wf : GatherDims.WF S100000x40 S3300000x1 S3300000x40 [1] [0] [] [0] [] 1 ![1, 40]
  scatter_S100000x40_S3300000x1_S3300000x40_1_0_0_1_wf : ScatterDims.WF S100000x40 S3300000x1 S3300000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S100000x512.size a
  hwx0_0 : ∀ i : grid0.Coords, EltTy.bits .f32 = 32 ∨ (Rect.block (s := S100000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x16.size a ≤ S512x16.size a
  hwx0_1 : ∀ i : grid0.Coords, EltTy.bits .f32 = 32 ∨ (Rect.block (s := S512x16) S512x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x16.size a ≤ S100000x16.size a
  hwx0_2 : ∀ i : grid0.Coords, EltTy.bits .f32 = 32 ∨ (Rect.block (s := S100000x16) S2000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x16.size a ≤ S100000x16.size a
  hwx1_0 : ∀ i : grid1.Coords, EltTy.bits .f32 = 32 ∨ (Rect.block (s := S100000x16) S5000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16.size a ≤ S16.size a
  hwx1_1 : ∀ i : grid1.Coords, EltTy.bits .f32 = 32 ∨ (Rect.block (s := S16) S16.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S16x40.size a ≤ S16x40.size a
  hwx1_2 : ∀ i : grid1.Coords, EltTy.bits .f32 = 32 ∨ (Rect.block (s := S16x40) S16x40.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x40.size a ≤ S100000x40.size a
  hwx1_3 : ∀ i : grid1.Coords, EltTy.bits .f32 = 32 ∨ (Rect.block (s := S100000x40) S5000x40.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x40.size a ≤ S100000x40.size a
  hwx2_0 : ∀ i : grid2.Coords, EltTy.bits .f32 = 32 ∨ (Rect.block (s := S100000x40) S5000x40.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S40.size a ≤ S40.size a
  hwx2_1 : ∀ i : grid2.Coords, EltTy.bits .f32 = 32 ∨ (Rect.block (s := S40) S40.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x40.size a ≤ S100000x40.size a
  hwx2_2 : ∀ i : grid2.Coords, EltTy.bits .f32 = 32 ∨ (Rect.block (s := S100000x40) S5000x40.size (cc2_transform_2 i) (hinb2_2 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S2000x512_S512x16_S2000x16_1_0_0_1_n_n : DotDims S2000x512 S512x16 S2000x16 where
  lhsContracting := [1]
  rhsContracting := [0]
  lhsNonContracting := [0]
  rhsNonContracting := [1]
  lhsBatch := []
  rhsBatch := []
  wf := dot_S2000x512_S512x16_S2000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S5000x16_S16x40_S5000x40_1_0_0_1_n_n : DotDims S5000x16 S16x40 S5000x40 where
  lhsContracting := [1]
  rhsContracting := [0]
  lhsNonContracting := [0]
  rhsNonContracting := [1]
  lhsBatch := []
  rhsBatch := []
  wf := dot_S5000x16_S16x40_S5000x40_1_0_0_1_n_n_wf
def gather_S100000x40_S3300000x1_S3300000x40_1_0_n_n_0_1_140 : GatherDims S100000x40 S3300000x1 S3300000x40 where
  offsetDims := [1]
  collapsedSliceDims := [0]
  operandBatchingDims := []
  startIndicesBatchingDims := []
  startIndexMap := [0]
  indexVectorDim := 1
  sliceSizes := ![1, 40]
  wf := gather_S100000x40_S3300000x1_S3300000x40_1_0_n_n_0_1_140_wf
def scatter_S100000x40_S3300000x1_S3300000x40_1_0_0_1 : ScatterDims S100000x40 S3300000x1 S3300000x40 where
  updateWindowDims := [1]
  insertedWindowDims := [0]
  scatterDimsToOperandDims := [0]
  indexVectorDim := 1
  wf := scatter_S100000x40_S3300000x1_S3300000x40_1_0_0_1_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S2000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S16x40.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v44) S5000x40.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v57) S5000x40.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S40.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v58) S5000x40.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x40 : Shape := ⟨2, ![16, 40]⟩
abbrev S40 : Shape := ⟨1, ![40]⟩
abbrev S1x3200000 : Shape := ⟨2, ![1, 3200000]⟩
abbrev S3200000 : Shape := ⟨1, ![3200000]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S3300000x16 : Shape := ⟨2, ![3300000, 16]⟩
abbrev S1x16 : Shape := ⟨2, ![1, 16]⟩
abbrev S100000x40 : Shape := ⟨2, ![100000, 40]⟩
abbrev S3300000x40 : Shape := ⟨2, ![3300000, 40]⟩
abbrev S1x40 : Shape := ⟨2, ![1, 40]⟩
abbrev S100000x1 : Shape := ⟨2, ![100000, 1]⟩

abbrev nBuf : Space → Nat
  | .hbm => 140
  | .vmem => 0
  | .smem => 0
  | _ => 0

abbrev hbmTy0_0 (i : Nat) : BufTy := match i % 128 with
  | 0 => ⟨S100000x512, .f32⟩
  | 1 => ⟨S2x3200000, .i32⟩
  | 2 => ⟨S512x16, .f32⟩
  | 3 => ⟨S16, .f32⟩
  | 4 => ⟨S16x40, .f32⟩
  | 5 => ⟨S40, .f32⟩
  | 6 => ⟨S1x3200000, .i32⟩
  | 7 => ⟨S3200000, .i32⟩
  | 8 => ⟨S1x3200000, .i32⟩
  | 9 => ⟨S3200000, .i32⟩
  | 10 => ⟨S100000, .i32⟩
  | 11 => ⟨S3300000, .i32⟩
  | 12 => ⟨S3300000, .i32⟩
  | 13 => ⟨S_, .f32⟩
  | 14 => ⟨S3300000, .f32⟩
  | 15 => ⟨S_, .f32⟩
  | 16 => ⟨S100000, .f32⟩
  | 17 => ⟨S3300000x1, .i32⟩
  | 18 => ⟨S100000, .f32⟩
  | 19 => ⟨S_, .f32⟩
  | 20 => ⟨S100000, .f32⟩
  | 21 => ⟨S100000, .i1⟩
  | 22 => ⟨S100000, .f32⟩
  | 23 => ⟨S_, .f32⟩
  | 24 => ⟨S_, .f32⟩
  | 25 => ⟨S100000, .f32⟩
  | 26 => ⟨S100000, .f32⟩
  | 27 => ⟨S_, .i32⟩
  | 28 => ⟨S3300000, .i32⟩
  | 29 => ⟨S3300000, .i1⟩
  | 30 => ⟨S_, .i32⟩
  | 31 => ⟨S3300000, .i32⟩
  | 32 => ⟨S3300000, .i32⟩
  | 33 => ⟨S3300000, .i32⟩
  | 34 => ⟨S3300000x1, .i32⟩
  | 35 => ⟨S3300000, .f32⟩
  | 36 => ⟨S_, .i32⟩
  | 37 => ⟨S3300000, .i32⟩
  | 38 => ⟨S3300000, .i1⟩
  | 39 => ⟨S_, .i32⟩
  | 40 => ⟨S3300000, .i32⟩
  | 41 => ⟨S3300000, .i32⟩
  | 42 => ⟨S3300000, .i32⟩
  | 43 => ⟨S3300000x1, .i32⟩
  | 44 => ⟨S3300000, .f32⟩
  | 45 => ⟨S3300000, .f32⟩
  | 46 => ⟨S100000x16, .f32⟩
  | 47 => ⟨S_, .i32⟩
  | 48 => ⟨S3300000, .i32⟩
  | 49 => ⟨S3300000, .i1⟩
  | 50 => ⟨S_, .i32⟩
  | 51 => ⟨S3300000, .i32⟩
  | 52 => ⟨S3300000, .i32⟩
  | 53 => ⟨S3300000, .i32⟩
  | 54 => ⟨S3300000x1, .i32⟩
  | 55 => ⟨S3300000x16, .f32⟩
  | 56 => ⟨S3300000x1, .f32⟩
  | 57 => ⟨S3300000x16, .f32⟩
  | 58 => ⟨S3300000x16, .f32⟩
  | 59 => ⟨S_, .f32⟩
  | 60 => ⟨S100000x16, .f32⟩
  | 61 => ⟨S3300000x1, .i32⟩
  | 62 => ⟨S100000x16, .f32⟩
  | 63 => ⟨S1x16, .f32⟩
  | 64 => ⟨S100000x16, .f32⟩
  | 65 => ⟨S100000x16, .f32⟩
  | 66 => ⟨S_, .f32⟩
  | 67 => ⟨S100000x16, .f32⟩
  | 68 => ⟨S100000x16, .f32⟩
  | 69 => ⟨S100000, .i32⟩
  | 70 => ⟨S3300000, .i32⟩
  | 71 => ⟨S3300000, .i32⟩
  | 72 => ⟨S_, .f32⟩
  | 73 => ⟨S3300000, .f32⟩
  | 74 => ⟨S_, .f32⟩
  | 75 => ⟨S100000, .f32⟩
  | 76 => ⟨S3300000x1, .i32⟩
  | 77 => ⟨S100000, .f32⟩
  | 78 => ⟨S_, .f32⟩
  | 79 => ⟨S100000, .f32⟩
  | 80 => ⟨S100000, .i1⟩
  | 81 => ⟨S100000, .f32⟩
  | 82 => ⟨S_, .f32⟩
  | 83 => ⟨S_, .f32⟩
  | 84 => ⟨S100000, .f32⟩
  | 85 => ⟨S100000, .f32⟩
  | 86 => ⟨S_, .i32⟩
  | 87 => ⟨S3300000, .i32⟩
  | 88 => ⟨S3300000, .i1⟩
  | 89 => ⟨S_, .i32⟩
  | 90 => ⟨S3300000, .i32⟩
  | 91 => ⟨S3300000, .i32⟩
  | 92 => ⟨S3300000, .i32⟩
  | 93 => ⟨S3300000x1, .i32⟩
  | 94 => ⟨S3300000, .f32⟩
  | 95 => ⟨S_, .i32⟩
  | 96 => ⟨S3300000, .i32⟩
  | 97 => ⟨S3300000, .i1⟩
  | 98 => ⟨S_, .i32⟩
  | 99 => ⟨S3300000, .i32⟩
  | 100 => ⟨S3300000, .i32⟩
  | 101 => ⟨S3300000, .i32⟩
  | 102 => ⟨S3300000x1, .i32⟩
  | 103 => ⟨S3300000, .f32⟩
  | 104 => ⟨S3300000, .f32⟩
  | 105 => ⟨S100000x40, .f32⟩
  | 106 => ⟨S_, .i32⟩
  | 107 => ⟨S3300000, .i32⟩
  | 108 => ⟨S3300000, .i1⟩
  | 109 => ⟨S_, .i32⟩
  | 110 => ⟨S3300000, .i32⟩
  | 111 => ⟨S3300000, .i32⟩
  | 112 => ⟨S3300000, .i32⟩
  | 113 => ⟨S3300000x1, .i32⟩
  | 114 => ⟨S3300000x40, .f32⟩
  | 115 => ⟨S3300000x1, .f32⟩
  | 116 => ⟨S3300000x40, .f32⟩
  | 117 => ⟨S3300000x40, .f32⟩
  | 118 => ⟨S_, .f32⟩
  | 119 => ⟨S100000x40, .f32⟩
  | 120 => ⟨S3300000x1, .i32⟩
  | 121 => ⟨S100000x40, .f32⟩
  | 122 => ⟨S1x40, .f32⟩
  | 123 => ⟨S100000x40, .f32⟩
  | 124 => ⟨S100000x40, .f32⟩
  | 125 => ⟨S_, .f32⟩
  | 126 => ⟨S100000, .f32⟩
  | 127 => ⟨S_, .f32⟩
  | _ => ⟨S100000x512, .f32⟩

abbrev hbmTy0_1 (i : Nat) : BufTy := match i % 128 with
  | 0 => ⟨S100000, .f32⟩
  | 1 => ⟨S100000, .f32⟩
  | 2 => ⟨S100000x1, .f32⟩
  | 3 => ⟨S100000x40, .f32⟩
  | 4 => ⟨S100000x40, .f32⟩
  | 5 => ⟨S100000x40, .f32⟩
  | 6 => ⟨S_, .f32⟩
  | 7 => ⟨S100000, .f32⟩
  | 8 => ⟨S100000x1, .f32⟩
  | 9 => ⟨S100000x1, .f32⟩
  | 10 => ⟨S100000x40, .f32⟩
  | 11 => ⟨S100000x40, .f32⟩
  | _ => ⟨S100000x512, .f32⟩

abbrev hbmTy (i : Nat) : BufTy := match i / 128 with
  | 0 => hbmTy0_0 i
  | 1 => hbmTy0_1 i
  | _ => ⟨S100000x512, .f32⟩

abbrev bufTy : (tb : Table) → Fin (tcTables nBuf tb) → BufTy
  | .hbm, ⟨i, _⟩ => hbmTy i
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_9 : Ref sig .tc := ⟨.hbm, 72, rfl⟩
abbrev main_v51 : Ref sig .tc := ⟨.hbm, 73, rfl⟩
abbrev main_cst_10 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_11 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_12 : Ref sig .tc := ⟨.hbm, 82, rfl⟩
abbrev main_call2_v0 : Ref sig .tc := ⟨.hbm, 83, rfl⟩
abbrev main_call2_v1 : Ref sig .tc := ⟨.hbm, 84, rfl⟩
abbrev main_v58 : Ref sig .tc := ⟨.hbm, 85, rfl⟩
abbrev main_c_13 : Ref sig .tc := ⟨.hbm, 86, rfl⟩
abbrev main_v59 : Ref sig .tc := ⟨.hbm, 87, rfl⟩
abbrev main_v60 : Ref sig .tc := ⟨.hbm, 88, rfl⟩
abbrev main_c_14 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_c_15 : Ref sig .tc := ⟨.hbm, 95, rfl⟩
abbrev main_v66 : Ref sig .tc := ⟨.hbm, 96, rfl⟩
abbrev main_v67 : Ref sig .tc := ⟨.hbm, 97, rfl⟩
abbrev main_c_16 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_c_17 : Ref sig .tc := ⟨.hbm, 106, rfl⟩
abbrev main_v75 : Ref sig .tc := ⟨.hbm, 107, rfl⟩
abbrev main_v76 : Ref sig .tc := ⟨.hbm, 108, rfl⟩
abbrev main_c_18 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_cst_19 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_call3_cst : Ref sig .tc := ⟨.hbm, 125, rfl⟩
abbrev main_call3_v0 : Ref sig .tc := ⟨.hbm, 126, rfl⟩
abbrev main_call3_cst_0 : Ref sig .tc := ⟨.hbm, 127, rfl⟩
abbrev main_call3_v1 : Ref sig .tc := ⟨.hbm, 128, rfl⟩
abbrev main_call3_v2 : Ref sig .tc := ⟨.hbm, 129, rfl⟩
abbrev main_call3_v3 : Ref sig .tc := ⟨.hbm, 130, rfl⟩
abbrev main_call3_v4 : Ref sig .tc := ⟨.hbm, 131, rfl⟩
abbrev main_call3_v5 : Ref sig .tc := ⟨.hbm, 132, rfl⟩
abbrev main_call3_v6 : Ref sig .tc := ⟨.hbm, 133, rfl⟩
abbrev main_call3_cst_1 : Ref sig .tc := ⟨.hbm, 134, rfl⟩
abbrev main_call3_v7 : Ref sig .tc := ⟨.hbm, 135, rfl⟩
abbrev main_call3_v8 : Ref sig .tc := ⟨.hbm, 136, rfl⟩
abbrev main_call3_v9 : Ref sig .tc := ⟨.hbm, 137, rfl⟩
abbrev main_call3_v10 : Ref sig .tc := ⟨.hbm, 138, rfl⟩
abbrev main_v91 : Ref sig .tc := ⟨.hbm, 139, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S3300000x1_S3300000x40_0_1 : S3300000x1.BroadcastsInDim S3300000x40 (![0, 1] : Fin 2 → Fin S3300000x40.rank)
  bcast_S_S100000x40 : S_.BroadcastsInDim S100000x40 (![] : Fin 0 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  h_S_ : 0 < S_.numel
  bcast_S100000_S100000x1_0 : S100000.BroadcastsInDim S100000x1 (![0] : Fin 1 → Fin S100000x1.rank)
  bcast_S100000x1_S100000x40_0_1 : S100000x1.BroadcastsInDim S100000x40 (![0, 1] : Fin 2 → Fin S100000x40.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x512_S512x16_S100000x16_1_0_0_1_n_n_wf : DotDims.WF S100000x512 S512x16 S100000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x40_S100000x40_1_0_0_1_n_n_wf : DotDims.WF S100000x16 S16x40 S100000x40 [1] [0] [0] [1] [] []
  gather_S100000x40_S3300000x1_S3300000x40_1_0_n_n_0_1_140_wf : GatherDims.WF S100000x40 S3300000x1 S3300000x40 [1] [0] [] [0] [] 1 ![1, 40]
  scatter_S100000x40_S3300000x1_S3300000x40_1_0_0_1_wf : ScatterDims.WF S100000x40 S3300000x1 S3300000x40 [1] [0] [0] 1

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x512_S512x16_S100000x16_1_0_0_1_n_n : DotDims S100000x512 S512x16 S100000x16 where
  lhsContracting := [1]
  rhsContracting := [0]
  lhsNonContracting := [0]
  rhsNonContracting := [1]
  lhsBatch := []
  rhsBatch := []
  wf := dot_S100000x512_S512x16_S100000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x40_S100000x40_1_0_0_1_n_n : DotDims S100000x16 S16x40 S100000x40 where
  lhsContracting := [1]
  rhsContracting := [0]
  lhsNonContracting := [0]
  rhsNonContracting := [1]
  lhsBatch := []
  rhsBatch := []
  wf := dot_S100000x16_S16x40_S100000x40_1_0_0_1_n_n_wf
def gather_S100000x40_S3300000x1_S3300000x40_1_0_n_n_0_1_140 : GatherDims S100000x40 S3300000x1 S3300000x40 where
  offsetDims := [1]
  collapsedSliceDims := [0]
  operandBatchingDims := []
  startIndicesBatchingDims := []
  startIndexMap := [0]
  indexVectorDim := 1
  sliceSizes := ![1, 40]
  wf := gather_S100000x40_S3300000x1_S3300000x40_1_0_n_n_0_1_140_wf
def scatter_S100000x40_S3300000x1_S3300000x40_1_0_0_1 : ScatterDims S100000x40 S3300000x1 S3300000x40 where
  updateWindowDims := [1]
  insertedWindowDims := [0]
  scatterDimsToOperandDims := [0]
  indexVectorDim := 1
  wf := scatter_S100000x40_S3300000x1_S3300000x40_1_0_0_1_wf

class Facts : Prop extends Facts₀ where

variable [Facts]
-- ==== Proof.Spec.lean ====
/-
  The mathematics of a two-layer graph convolution followed by a row-wise log-softmax, index by index, on the
  extended reals. Three dense stages are stated here: a matrix product (row `i` of the left factor against column
  `j` of the right one), the hidden activation (add a bias row, clamp below at zero), and the log-softmax of each
  row of a biased matrix: subtract the row's maximum, then subtract the logarithm of the row's sum of exponentials.
  The neighbour aggregation between the dense stages (gather rows by source node, scale, scatter-add by
  destination node) is the same chain of operations in both programs and is never opened.
-/
import Idealize.ShloMosaic.PureOps.Ideal
import Idealize.ShloMosaic.Lib.ValueIdx

noncomputable section

open scoped BigOperators

namespace Cert.GcnSpec

open Idealize.ShloMosaic Idealize.ShloMosaic.ValueIdx

/-- The row coordinate of a rank-2 index, typed by the first extent. -/
abbrev row {n m : Nat} (i : (⟨2, ![n, m]⟩ : Shape).Idx) : Fin n := ⟨(i 0).val, idx2_lt0 i⟩
/-- The column coordinate of a rank-2 index, typed by the second extent. -/
abbrev col {n m : Nat} (i : (⟨2, ![n, m]⟩ : Shape).Idx) : Fin m := ⟨(i 1).val, idx2_lt1 i⟩

/-- The matrix product: entry `(r, c)` is the sum over `k` of `x (r, k) · w (k, c)`. -/
def dense {n K m : Nat} (x : (⟨2, ![n, K]⟩ : Shape).Idx → EReal) (w : (⟨2, ![K, m]⟩ : Shape).Idx → EReal) :
    (⟨2, ![n, m]⟩ : Shape).Idx → EReal :=
  fun i => ∑ k : Fin K, x (ix2 (row i) k) * w (ix2 k (col i))

/-- A bias row added to every row of a matrix. -/
def addBias {n K : Nat} (a : (⟨2, ![n, K]⟩ : Shape).Idx → EReal) (b : (⟨1, ![K]⟩ : Shape).Idx → EReal) :
    (⟨2, ![n, K]⟩ : Shape).Idx → EReal :=
  fun i => a i + b (ix1 (col i))

/-- The hidden activation: the biased matrix clamped below at zero. -/
def biasRelu {n K : Nat} (a : (⟨2, ![n, K]⟩ : Shape).Idx → EReal) (b : (⟨1, ![K]⟩ : Shape).Idx → EReal) :
    (⟨2, ![n, K]⟩ : Shape).Idx → EReal :=
  fun i => max (addBias a b i) 0

/-- The maximum of row `r`, folded from `-∞`. -/
def rowMax {n C : Nat} (y : (⟨2, ![n, C]⟩ : Shape).Idx → EReal) (r : Fin n) : EReal :=
  (Finset.univ : Finset (Fin C)).fold max ⊥ (fun k => y (ix2 r k))

/-- Row `r` shifted by its maximum, at column `k`. -/
def shifted {n C : Nat} (y : (⟨2, ![n, C]⟩ : Shape).Idx → EReal) (r : Fin n) (k : Fin C) : EReal :=
  y (ix2 r k) - rowMax y r

/-- The logarithm of the sum of the exponentials of row `r`'s shifted entries. -/
def logSumExp {n C : Nat} (y : (⟨2, ![n, C]⟩ : Shape).Idx → EReal) (r : Fin n) : EReal :=
  Ideal.log (∑ k : Fin C, Ideal.exp (shifted y r k))

/-- The row-wise log-softmax: each shifted entry less its row's log-sum-exp. -/
def logSoftmaxRows {n C : Nat} (y : (⟨2, ![n, C]⟩ : Shape).Idx → EReal) : (⟨2, ![n, C]⟩ : Shape).Idx → EReal :=
  fun i => shifted y (row i) (col i) - logSumExp y (row i)

/-! ## Row locality: entry `(r, c)` of a dense stage reads row `r` of its left operand only -/

/-- Two products over the same right factor agree at two indices with the same column whose rows of the left
    factors agree entry by entry. -/
theorem dense_congr_row {n n' K m : Nat} (x : (⟨2, ![n, K]⟩ : Shape).Idx → EReal) (x' : (⟨2, ![n', K]⟩ : Shape).Idx → EReal)
    (w : (⟨2, ![K, m]⟩ : Shape).Idx → EReal) (i : (⟨2, ![n, m]⟩ : Shape).Idx) (i' : (⟨2, ![n', m]⟩ : Shape).Idx)
    (hrow : ∀ k : Fin K, x (ix2 (row i) k) = x' (ix2 (row i') k)) (hcol : col i = col i') :
    dense x w i = dense x' w i' := by
  unfold dense
  exact Finset.sum_congr rfl fun k _ => by rw [hrow k, hcol]

/-- The log-softmax at `(r, c)` is a function of row `r` alone: two matrices whose rows `r` and `r'` agree entry by
    entry have the same log-softmax at `(r, c)` and `(r', c)`. -/
theorem logSoftmaxRows_congr_row {n n' C : Nat} (y : (⟨2, ![n, C]⟩ : Shape).Idx → EReal) (y' : (⟨2, ![n', C]⟩ : Shape).Idx → EReal)
    (i : (⟨2, ![n, C]⟩ : Shape).Idx) (i' : (⟨2, ![n', C]⟩ : Shape).Idx)
    (hrow : ∀ k : Fin C, y (ix2 (row i) k) = y' (ix2 (row i') k)) (hcol : col i = col i') :
    logSoftmaxRows y i = logSoftmaxRows y' i' := by
  have hm : rowMax y (row i) = rowMax y' (row i') := by
    unfold rowMax; exact congrArg (fun f => Finset.fold max ⊥ f Finset.univ) (funext hrow)
  have hs : ∀ k, shifted y (row i) k = shifted y' (row i') k := fun k => by
    unfold shifted; rw [hrow k, hm]
  unfold logSoftmaxRows logSumExp
  rw [hcol, hs (col i')]
  exact congrArg (fun s => shifted y' (row i') (col i') - Ideal.log s) (Finset.sum_congr rfl fun k _ => by rw [hs k])

end Cert.GcnSpec

end
-- ==== Proof.Region0Value.lean ====
/-
  The first dense stage: a pallas_call over 50 grid points, point `t` writing rows `2000·t … 2000·t + 1999` of the
  product `x · W₁`. At the ideal values the two format changes are the identity and a matrix product into a zero
  accumulator is the plain sum over the contracted axis, so the block a point writes is the restriction of the
  whole product to its rows; the fifty blocks tile the rows, so the array ends holding the product.
-/
import proofs.«112764_j29540785062187_1_alg».proof.Proof.Gen.KernelIdeal.Frame
import proofs.«112764_j29540785062187_1_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Region0

open Cert.KernelIdeal Cert.KernelIdeal.Gen Cert.GcnSpec
open Idealize.ShloMosaic Idealize.ShloMosaic.TcCoe Idealize.ShloMosaic.ValueIdx Idealize.SL.Sem
open Idealize.ShloMosaic.Pipeline (Dat)

/-! ## The body's product at an index -/

theorem lhs_axis0 (i : S2000x16.Idx) (q : dot_S2000x512_S512x16_S2000x16_1_0_0_1_n_n.contr.Idx) :
    (dot_S2000x512_S512x16_S2000x16_1_0_0_1_n_n.lhsIdx i q 0).val = (i 0).val := by
  unfold DotDims.lhsIdx
  rw [dif_neg (show ¬(0 : Fin S2000x512.rank) ∈ dot_S2000x512_S512x16_S2000x16_1_0_0_1_n_n.lhsBatch by decide), dif_pos (show (0 : Fin S2000x512.rank) ∈ dot_S2000x512_S512x16_S2000x16_1_0_0_1_n_n.lhsNonContracting by decide)]
  rfl
theorem lhs_axis1 (i : S2000x16.Idx) (q : dot_S2000x512_S512x16_S2000x16_1_0_0_1_n_n.contr.Idx) :
    (dot_S2000x512_S512x16_S2000x16_1_0_0_1_n_n.lhsIdx i q 1).val = (q ⟨0, by decide⟩).val :=
  dot_S2000x512_S512x16_S2000x16_1_0_0_1_n_n.lhsIdx_val_of_single rfl i q
theorem rhs_axis0 (i : S2000x16.Idx) (q : dot_S2000x512_S512x16_S2000x16_1_0_0_1_n_n.contr.Idx) :
    (dot_S2000x512_S512x16_S2000x16_1_0_0_1_n_n.rhsIdx i q 0).val = (q ⟨0, by decide⟩).val :=
  dot_S2000x512_S512x16_S2000x16_1_0_0_1_n_n.rhsIdx_val_of_single rfl i q
theorem rhs_axis1 (i : S2000x16.Idx) (q : dot_S2000x512_S512x16_S2000x16_1_0_0_1_n_n.contr.Idx) :
    (dot_S2000x512_S512x16_S2000x16_1_0_0_1_n_n.rhsIdx i q 1).val = (i 1).val := by
  unfold DotDims.rhsIdx
  rw [dif_neg (show ¬(1 : Fin S512x16.rank) ∈ dot_S2000x512_S512x16_S2000x16_1_0_0_1_n_n.rhsBatch by decide), dif_pos (show (1 : Fin S512x16.rank) ∈ dot_S2000x512_S512x16_S2000x16_1_0_0_1_n_n.rhsNonContracting by decide)]
  rfl

/-- The body's stored value at `(p, q)` of the block: row `p` of the loaded rows against column `q` of the weights. -/
theorem block_product (X : Vec Ideal S2000x512 .f32) (W : Vec Ideal S512x16 .f32) (j : S2000x16.Idx) :
    k0_pay1 (F := Ideal) X W j = ∑ k : Fin 512, X (ix2 (row j) k) * W (ix2 k (col j)) := by
  unfold k0_pay1
  simp only [matmul]
  rw [Ideal.matmul_constant_zero_apply, ← Equiv.sum_comp (contrEquiv1 dot_S2000x512_S512x16_S2000x16_1_0_0_1_n_n 512 rfl rfl).symm]
  refine Finset.sum_congr rfl fun k _ => ?_
  have hk := contrEquiv1_symm_val dot_S2000x512_S512x16_S2000x16_1_0_0_1_n_n 512 rfl rfl k
  have el : dot_S2000x512_S512x16_S2000x16_1_0_0_1_n_n.lhsIdx j ((contrEquiv1 dot_S2000x512_S512x16_S2000x16_1_0_0_1_n_n 512 rfl rfl).symm k) = ix2 (row j) k := funext fun a => Fin.ext (by
    match a with
    | ⟨0, _⟩ => exact lhs_axis0 _ _
    | ⟨1, _⟩ => exact (lhs_axis1 _ _).trans hk)
  have er : dot_S2000x512_S512x16_S2000x16_1_0_0_1_n_n.rhsIdx j ((contrEquiv1 dot_S2000x512_S512x16_S2000x16_1_0_0_1_n_n 512 rfl rfl).symm k) = ix2 k (col j) := funext fun a => Fin.ext (by
    match a with
    | ⟨0, _⟩ => exact (rhs_axis0 _ _).trans hk
    | ⟨1, _⟩ => exact rhs_axis1 _ _)
  rw [el, er]
  rfl

/-! ## From the blocks to the array -/

variable (V : (c : Dev nD) → (b : Ref sig .tc) → Buf (Elt Ideal) ((c : Thread nD τ).loc b))

/-- The two arrays the region reads, as it finds them, at their literal types. -/
abbrev xs (c : Dev nD) : S100000x512.Idx → EReal := V c main_arg0
abbrev ws (c : Dev nD) : S512x16.Idx → EReal := V c main_arg2

theorem zero_offsets : (![0, 0] : Fin 2 → Nat) = fun _ => 0 := funext fun a => by fin_cases a <;> rfl

/-- The printed index maps over the grid: the rows' and the result's block index is the point, the weights' is zero. -/
theorem index_maps : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the whole product of the arrays the region finds. -/
theorem flushed_eq (c : Dev nD) (t : Fin cfg0.N) :
    (dat0 (F := Ideal) V c).flushed 2 t
      = ((cfg0.win 2).blk t).view.read (Elt Ideal) (dense (xs V c) (ws V c)) := by
  show (cfg0.win 2).cut (grid0.coords t) ((dat0 V c).after 2 t) = _
  rw [after0_2]
  unfold out0_2
  rw [View.canon_unit_zero zero_offsets]
  simp only [View.ld_unit_zero (S := S2000x512) zero_offsets, View.ld_unit_zero (S := S512x16) zero_offsets]
  obtain ⟨e0, e1, e2, e3, e4, e5⟩ := index_maps t
  funext j
  show k0_pay1 (F := Ideal) (iblk0 V c 0 t) (iblk0 V c 1 t) j = dense (xs V c) (ws V c) (((cfg0.win 2).blk t).view.emb j)
  refine (block_product (iblk0 V c 0 t) (iblk0 V c 1 t) j).trans ?_
  unfold dense
  refine Finset.sum_congr rfl fun k _ => ?_
  have hx : ((cfg0.win 0).blk t).view.emb (ix2 (row j) k) = ix2 (row (((cfg0.win 2).blk t).view.emb j)) k := by
    funext a; apply Fin.ext
    match a with
    | ⟨0, _⟩ => show win0_0.index t (0 : Fin 2) * 2000 + 1 * (j 0).val = win0_2.index t (0 : Fin 2) * 2000 + 1 * (j 0).val; omega
    | ⟨1, _⟩ => show win0_0.index t (1 : Fin 2) * 512 + 1 * k.val = k.val; omega
  have hw : ((cfg0.win 1).blk t).view.emb (ix2 k (col j)) = ix2 k (col (((cfg0.win 2).blk t).view.emb j)) := by
    funext a; apply Fin.ext
    match a with
    | ⟨0, _⟩ => show win0_1.index t (0 : Fin 2) * 512 + 1 * k.val = k.val; omega
    | ⟨1, _⟩ => show win0_1.index t (1 : Fin 2) * 16 + 1 * (j 1).val = win0_2.index t (1 : Fin 2) * 16 + 1 * (j 1).val; omega
  show xs V c (((cfg0.win 0).blk t).view.emb (ix2 (row j) k)) * ws V c (((cfg0.win 1).blk t).view.emb (ix2 k (col j))) = _
  rw [hx, hw]

/-- An index of the result array is in point `t`'s block iff each coordinate is in the block's range. -/
theorem mem_blk (t : Fin cfg0.N) (i : S100000x16.Idx) :
    i ∈ ((cfg0.win 2).blk t).view.set ↔ ∀ a : Fin 2, win0_2.index t a * S2000x16.size a ≤ (i a).val ∧ (i a).val < win0_2.index t a * S2000x16.size a + S2000x16.size a := by
  show i ∈ ((View.whole main_v30).slice (win0_2.rect t)).set ↔ _
  rw [View.set_slice_whole, Rect.mem_set_unit]
  exact Iff.rfl

/-- THE ARRAY after the region: the whole product. Row `r` is written by point `r / 2000`. -/
theorem final (c : Dev nD) :
    (dat0 (F := Ideal) V c).arrAt 2 cfg0.N = dense (xs V c) (ws V c) :=
  (dat0 (F := Ideal) V c).arrAt_eq_of_cover 2 _ (fun t _ => flushed_eq V c t) fun i => by
    have hi0 : (i 0).val < 100000 := (i 0).isLt
    have hi1 : (i 1).val < 16 := (i 1).isLt
    have hN : cfg0.N = 50 := N_0
    let t : Fin cfg0.N := ⟨(i 0).val / 2000, by omega⟩
    obtain ⟨e0, e1, e2, e3, e4, e5⟩ := index_maps t
    refine ⟨t, flush0_2 t, ?_⟩
    rw [mem_blk]
    intro a
    match a with
    | ⟨0, _⟩ => show win0_2.index t (0 : Fin 2) * 2000 ≤ (i 0).val ∧ (i 0).val < win0_2.index t (0 : Fin 2) * 2000 + 2000; rw [e4]; show (i 0).val / 2000 * 2000 ≤ (i 0).val ∧ (i 0).val < (i 0).val / 2000 * 2000 + 2000; omega
    | ⟨1, _⟩ => show win0_2.index t (1 : Fin 2) * 16 ≤ (i 1).val ∧ (i 1).val < win0_2.index t (1 : Fin 2) * 16 + 16; omega

end Cert.KernelIdeal.Region0

end
-- ==== Proof.Region1Value.lean ====
/-
  The second dense stage: a pallas_call over 20 grid points, point `t` reading rows `5000·t … 5000·t + 4999` of the
  aggregated first layer, adding the bias row, clamping below at zero and multiplying by `W₂`. At the ideal values
  the block a point writes is the product of its own hidden rows with `W₂`, which is the restriction of the whole
  array's product to those rows; the twenty blocks tile the rows.
-/
import proofs.«112764_j29540785062187_1_alg».proof.Proof.Gen.KernelIdeal.Frame
import proofs.«112764_j29540785062187_1_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Region1

open Cert.KernelIdeal Cert.KernelIdeal.Gen Cert.GcnSpec
open Idealize.ShloMosaic Idealize.ShloMosaic.TcCoe Idealize.ShloMosaic.ValueIdx Idealize.SL.Sem
open Idealize.ShloMosaic.Pipeline (Dat)

/-! ## The body's value at an index -/

theorem lhs_axis0 (i : S5000x40.Idx) (q : dot_S5000x16_S16x40_S5000x40_1_0_0_1_n_n.contr.Idx) :
    (dot_S5000x16_S16x40_S5000x40_1_0_0_1_n_n.lhsIdx i q 0).val = (i 0).val := by
  unfold DotDims.lhsIdx
  rw [dif_neg (show ¬(0 : Fin S5000x16.rank) ∈ dot_S5000x16_S16x40_S5000x40_1_0_0_1_n_n.lhsBatch by decide), dif_pos (show (0 : Fin S5000x16.rank) ∈ dot_S5000x16_S16x40_S5000x40_1_0_0_1_n_n.lhsNonContracting by decide)]
  rfl
theorem lhs_axis1 (i : S5000x40.Idx) (q : dot_S5000x16_S16x40_S5000x40_1_0_0_1_n_n.contr.Idx) :
    (dot_S5000x16_S16x40_S5000x40_1_0_0_1_n_n.lhsIdx i q 1).val = (q ⟨0, by decide⟩).val :=
  dot_S5000x16_S16x40_S5000x40_1_0_0_1_n_n.lhsIdx_val_of_single rfl i q
theorem rhs_axis0 (i : S5000x40.Idx) (q : dot_S5000x16_S16x40_S5000x40_1_0_0_1_n_n.contr.Idx) :
    (dot_S5000x16_S16x40_S5000x40_1_0_0_1_n_n.rhsIdx i q 0).val = (q ⟨0, by decide⟩).val :=
  dot_S5000x16_S16x40_S5000x40_1_0_0_1_n_n.rhsIdx_val_of_single rfl i q
theorem rhs_axis1 (i : S5000x40.Idx) (q : dot_S5000x16_S16x40_S5000x40_1_0_0_1_n_n.contr.Idx) :
    (dot_S5000x16_S16x40_S5000x40_1_0_0_1_n_n.rhsIdx i q 1).val = (i 1).val := by
  unfold DotDims.rhsIdx
  rw [dif_neg (show ¬(1 : Fin S16x40.rank) ∈ dot_S5000x16_S16x40_S5000x40_1_0_0_1_n_n.rhsBatch by decide), dif_pos (show (1 : Fin S16x40.rank) ∈ dot_S5000x16_S16x40_S5000x40_1_0_0_1_n_n.rhsNonContracting by decide)]
  rfl

/-- The bias, viewed as a one-row matrix and repeated down the rows, reads at `(p, k)` its `k`-th entry. -/
theorem bias_row (b : Vec Ideal S16 .f32) (p : Fin 5000) (k : Fin 16) :
    broadcastTo S5000x16 (shapeCast S1x16 b shapeCasts_S16_S1x16) broadcasts_S1x16_S5000x16 (ix2 p k) = b (ix1 k) := by
  refine (broadcastTo_apply _ broadcasts_S1x16_S5000x16 (ix2 p k) (ix2 (0 : Fin 1) k) fun a => ?_).trans ?_
  · match a with
    | ⟨0, _⟩ => rfl
    | ⟨1, _⟩ => rfl
  · exact shapeCast_apply b shapeCasts_S16_S1x16 _ (ix1 k) (by
      rw [Shape.rowMajor_val_two, Shape.rowMajor_val_one]
      show k.val = (0 : Fin 1).val * 16 + k.val
      simp)

/-- The hidden activation of the block at `(p, k)`: the loaded entry plus the bias entry, clamped below at zero. -/
theorem hidden_entry (b : Vec Ideal S16 .f32) (A : Vec Ideal S5000x16 .f32) (p : Fin 5000) (k : Fin 16) :
    maximumf (F := Ideal) (addf (shapeCast S5000x16 A shapeCasts_S5000x16_S5000x16) (broadcastTo S5000x16 (shapeCast S1x16 b shapeCasts_S16_S1x16) broadcasts_S1x16_S5000x16)) (broadcast S5000x16 (Scalar.ofBits .f32 0x00000000#32)) (ix2 p k)
      = biasRelu (n := 5000) (K := 16) A b (ix2 p k) := by
  show max (shapeCast S5000x16 A shapeCasts_S5000x16_S5000x16 (ix2 p k) + broadcastTo S5000x16 (shapeCast S1x16 b shapeCasts_S16_S1x16) broadcasts_S1x16_S5000x16 (ix2 p k)) (Ideal.ofBits .f32 0x00000000#32) = max (A (ix2 p k) + b (ix1 k)) 0
  rw [shapeCast_self, bias_row, Ideal.ofBits_zero_f32]

/-- The body's stored value is the product of the block's hidden rows with the weights. -/
theorem block_product (b : Vec Ideal S16 .f32) (A : Vec Ideal S5000x16 .f32) (W : Vec Ideal S16x40 .f32) (j : S5000x40.Idx) :
    k1_pay1 (F := Ideal) b A W j = dense (n := 5000) (K := 16) (m := 40) (biasRelu (n := 5000) (K := 16) A b) W j := by
  unfold k1_pay1 dense
  simp only [matmul]
  rw [Ideal.matmul_constant_zero_apply, ← Equiv.sum_comp (contrEquiv1 dot_S5000x16_S16x40_S5000x40_1_0_0_1_n_n 16 rfl rfl).symm]
  refine Finset.sum_congr rfl fun k _ => ?_
  have hk := contrEquiv1_symm_val dot_S5000x16_S16x40_S5000x40_1_0_0_1_n_n 16 rfl rfl k
  have el : dot_S5000x16_S16x40_S5000x40_1_0_0_1_n_n.lhsIdx j ((contrEquiv1 dot_S5000x16_S16x40_S5000x40_1_0_0_1_n_n 16 rfl rfl).symm k) = ix2 (row j) k := funext fun a => Fin.ext (by
    match a with
    | ⟨0, _⟩ => exact lhs_axis0 _ _
    | ⟨1, _⟩ => exact (lhs_axis1 _ _).trans hk)
  have er : dot_S5000x16_S16x40_S5000x40_1_0_0_1_n_n.rhsIdx j ((contrEquiv1 dot_S5000x16_S16x40_S5000x40_1_0_0_1_n_n 16 rfl rfl).symm k) = ix2 k (col j) := funext fun a => Fin.ext (by
    match a with
    | ⟨0, _⟩ => exact (rhs_axis0 _ _).trans hk
    | ⟨1, _⟩ => exact rhs_axis1 _ _)
  rw [el, er]
  exact congrArg (· * W (ix2 k (col j))) (hidden_entry b A (row j) k)

/-! ## From the blocks to the array -/

variable (V : (c : Dev nD) → (b : Ref sig .tc) → Buf (Elt Ideal) ((c : Thread nD τ).loc b))

/-- The three arrays the region reads, as it finds them, at their literal types. -/
abbrev hs (c : Dev nD) : S100000x16.Idx → EReal := V c main_v43
abbrev bs (c : Dev nD) : S16.Idx → EReal := V c main_arg3
abbrev ws (c : Dev nD) : S16x40.Idx → EReal := V c main_arg4

theorem zero_offsets : (![0, 0] : Fin 2 → Nat) = fun _ => 0 := funext fun a => by fin_cases a <;> rfl
theorem zero_offset : (![0] : Fin 1 → Nat) = fun _ => 0 := funext fun a => by fin_cases a; rfl

/-- The printed index maps over the grid: the rows' and the result's block index is the point; the bias and the
    weights are one block each. -/
theorem index_maps : ∀ t : Fin cfg1.N, win1_0.index t (0 : Fin 2) = t.val ∧ win1_0.index t (1 : Fin 2) = 0
    ∧ win1_1.index t (0 : Fin 1) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point `t` writes back is block `t` of the whole array's hidden rows times the weights. -/
theorem flushed_eq (c : Dev nD) (t : Fin cfg1.N) :
    (dat1 (F := Ideal) V c).flushed 3 t
      = ((cfg1.win 3).blk t).view.read (Elt Ideal) (dense (biasRelu (hs V c) (bs V c)) (ws V c)) := by
  show (cfg1.win 3).cut (grid1.coords t) ((dat1 V c).after 3 t) = _
  rw [after1_3]
  unfold out1_3
  rw [View.canon_unit_zero zero_offsets]
  simp only [View.ld_unit_zero (S := S5000x16) zero_offsets, View.ld_unit_zero (S := S16) zero_offset, View.ld_unit_zero (S := S16x40) zero_offsets]
  obtain ⟨e0, e1, e2, e3, e4, e5, e6⟩ := index_maps t
  funext j
  show k1_pay1 (F := Ideal) (iblk1 V c 1 t) (iblk1 V c 0 t) (iblk1 V c 2 t) j = dense (biasRelu (hs V c) (bs V c)) (ws V c) (((cfg1.win 3).blk t).view.emb j)
  refine (block_product (iblk1 V c 1 t) (iblk1 V c 0 t) (iblk1 V c 2 t) j).trans ?_
  unfold dense
  refine Finset.sum_congr rfl fun k _ => ?_
  have hx : ((cfg1.win 0).blk t).view.emb (ix2 (row j) k) = ix2 (row (((cfg1.win 3).blk t).view.emb j)) k := by
    funext a; apply Fin.ext
    match a with
    | ⟨0, _⟩ => show win1_0.index t (0 : Fin 2) * 5000 + 1 * (j 0).val = win1_3.index t (0 : Fin 2) * 5000 + 1 * (j 0).val; omega
    | ⟨1, _⟩ => show win1_0.index t (1 : Fin 2) * 16 + 1 * k.val = k.val; omega
  have hb : ((cfg1.win 1).blk t).view.emb (ix1 k) = ix1 k := by
    funext a; apply Fin.ext
    match a with
    | ⟨0, _⟩ => show win1_1.index t (0 : Fin 1) * 16 + 1 * k.val = k.val; omega
  have hw : ((cfg1.win 2).blk t).view.emb (ix2 k (col j)) = ix2 k (col (((cfg1.win 3).blk t).view.emb j)) := by
    funext a; apply Fin.ext
    match a with
    | ⟨0, _⟩ => show win1_2.index t (0 : Fin 2) * 16 + 1 * k.val = k.val; omega
    | ⟨1, _⟩ => show win1_2.index t (1 : Fin 2) * 40 + 1 * (j 1).val = win1_3.index t (1 : Fin 2) * 40 + 1 * (j 1).val; omega
  show max (hs V c (((cfg1.win 0).blk t).view.emb (ix2 (row j) k)) + bs V c (((cfg1.win 1).blk t).view.emb (ix1 k))) 0 * ws V c (((cfg1.win 2).blk t).view.emb (ix2 k (col j)))
    = max (hs V c (ix2 (row (((cfg1.win 3).blk t).view.emb j)) k) + bs V c (ix1 k)) 0 * ws V c (ix2 k (col (((cfg1.win 3).blk t).view.emb j)))
  rw [hx, hb, hw]

/-- An index of the result array is in point `t`'s block iff each coordinate is in the block's range. -/
theorem mem_blk (t : Fin cfg1.N) (i : S100000x40.Idx) :
    i ∈ ((cfg1.win 3).blk t).view.set ↔ ∀ a : Fin 2, win1_3.index t a * S5000x40.size a ≤ (i a).val ∧ (i a).val < win1_3.index t a * S5000x40.size a + S5000x40.size a := by
  show i ∈ ((View.whole main_v44).slice (win1_3.rect t)).set ↔ _
  rw [View.set_slice_whole, Rect.mem_set_unit]
  exact Iff.rfl

/-- THE ARRAY after the region. Row `r` is written by point `r / 5000`. -/
theorem final (c : Dev nD) :
    (dat1 (F := Ideal) V c).arrAt 3 cfg1.N = dense (biasRelu (hs V c) (bs V c)) (ws V c) :=
  (dat1 (F := Ideal) V c).arrAt_eq_of_cover 3 _ (fun t _ => flushed_eq V c t) fun i => by
    have hi0 : (i 0).val < 100000 := (i 0).isLt
    have hi1 : (i 1).val < 40 := (i 1).isLt
    have hN : cfg1.N = 20 := N_1
    let t : Fin cfg1.N := ⟨(i 0).val / 5000, by omega⟩
    obtain ⟨e0, e1, e2, e3, e4, e5, e6⟩ := index_maps t
    refine ⟨t, flush1_3 t, ?_⟩
    rw [mem_blk]
    intro a
    match a with
    | ⟨0, _⟩ => show win1_3.index t (0 : Fin 2) * 5000 ≤ (i 0).val ∧ (i 0).val < win1_3.index t (0 : Fin 2) * 5000 + 5000; rw [e5]; show (i 0).val / 5000 * 5000 ≤ (i 0).val ∧ (i 0).val < (i 0).val / 5000 * 5000 + 5000; omega
    | ⟨1, _⟩ => show win1_3.index t (1 : Fin 2) * 40 ≤ (i 1).val ∧ (i 1).val < win1_3.index t (1 : Fin 2) * 40 + 40; omega

end Cert.KernelIdeal.Region1

end
-- ==== Proof.LibKeepdims.lean ====
/-
  Two layout operations of a column read at an index, at any extents: a vector of length `a` viewed as an `[a, 1]`
  column (what `keepdims=True` leaves of a sum along the lanes) reads its `i`-th entry at `(i, 0)`; and an `[a, 1]`
  column broadcast along the lanes to `[a, b]` reads, at `(p, c)`, the column's entry of row `p`.
-/
import Idealize.ShloMosaic.Lib.Pipeline.Value
import Idealize.ShloMosaic.Lib.ValueIdx

namespace Cert.LibKeepdims

open Idealize.ShloMosaic Idealize.ShloMosaic.ValueIdx

variable {α : Type}

/-- An `[a]` array cast to `[a, 1]` reads, at `(i, u)`, the operand at `i`, whatever the unit coordinate `u`: both
    sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims
-- ==== Proof.Region2Value.lean ====
/-
  The last stage: a pallas_call over 20 grid points, point `t` reading rows `5000·t … 5000·t + 4999` of the aggregated
  second layer, adding the bias row and taking the log-softmax of each row: the row's maximum (a lane reduction
  folded from `-∞`) is subtracted, then the logarithm of the row's sum of exponentials. Every step works row by row, so
  the block a point writes is the log-softmax of its own rows, which is the restriction of the whole array's
  log-softmax to those rows; the twenty blocks tile the rows.
-/
import proofs.«112764_j29540785062187_1_alg».proof.Proof.Gen.KernelIdeal.Frame
import proofs.«112764_j29540785062187_1_alg».proof.Proof.Spec
import proofs.«112764_j29540785062187_1_alg».proof.Proof.LibKeepdims
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Region2

open Cert.KernelIdeal Cert.KernelIdeal.Gen Cert.GcnSpec Cert.LibKeepdims
open Idealize.ShloMosaic Idealize.ShloMosaic.TcCoe Idealize.ShloMosaic.ValueIdx Idealize.SL.Sem
open Idealize.ShloMosaic.Pipeline (Dat)

/-! ## The body's value at an index -/

/-- The bias, viewed as a one-row matrix and repeated down the rows, reads at `(p, k)` its `k`-th entry. -/
theorem bias_row (b : Vec Ideal S40 .f32) (p : Fin 5000) (k : Fin 40) :
    broadcastTo S5000x40 (shapeCast S1x40 b shapeCasts_S40_S1x40) broadcasts_S1x40_S5000x40 (ix2 p k) = b (ix1 k) := by
  refine (broadcastTo_apply _ broadcasts_S1x40_S5000x40 (ix2 p k) (ix2 (0 : Fin 1) k) fun a => ?_).trans ?_
  · match a with
    | ⟨0, _⟩ => rfl
    | ⟨1, _⟩ => rfl
  · exact shapeCast_apply b shapeCasts_S40_S1x40 _ (ix1 k) (by
      rw [Shape.rowMajor_val_two, Shape.rowMajor_val_one]
      show k.val = (0 : Fin 1).val * 40 + k.val
      simp)

/-- The biased block at `(p, k)`. -/
theorem biased_entry (b : Vec Ideal S40 .f32) (A : Vec Ideal S5000x40 .f32) (p : Fin 5000) (k : Fin 40) :
    addf (F := Ideal) (φ := .f32) (shapeCast S5000x40 A shapeCasts_S5000x40_S5000x40) (broadcastTo S5000x40 (shapeCast S1x40 b shapeCasts_S40_S1x40) broadcasts_S1x40_S5000x40) (ix2 p k)
      = addBias (n := 5000) (K := 40) A b (ix2 p k) := by
  show shapeCast S5000x40 A shapeCasts_S5000x40_S5000x40 (ix2 p k) + broadcastTo S5000x40 (shapeCast S1x40 b shapeCasts_S40_S1x40) broadcasts_S1x40_S5000x40 (ix2 p k) = A (ix2 p k) + b (ix1 k)
  rw [shapeCast_self, bias_row]

/-- The lane reduction's inserted index: row `p` with the lane coordinate `k` put back. -/
theorem lift_row (p : Fin 5000) (k : Fin 40) : reduces_S5000x40_S5000.lift (ix1 p) k = ix2 p k :=
  funext fun a => Fin.ext (by match a with | ⟨0, _⟩ => rfl | ⟨1, _⟩ => rfl)

/-- The word of `-∞` denotes the bottom of the extended reals. -/
theorem neg_inf : (Ideal.ofBits .f32 0xFF800000#32 : EReal) = ⊥ := by simp [Ideal.ofBits, Ideal.ieee]

/-- The lane maximum of a block at row `p` is the row's maximum folded from `-∞`. -/
theorem lane_max (y : FVec Ideal S5000x40 .f32) (p : Fin 5000) :
    multiReduction .maximumf [1] S5000 y 0xFF800000#32 reduces_S5000x40_S5000 (.inl rfl) rfl (ix1 p) = rowMax (n := 5000) (C := 40) y p := by
  refine (Ideal.multiReduction_maximumf_single y 0xFF800000#32 reduces_S5000x40_S5000 (.inl rfl) rfl (ix1 p)).trans ?_
  unfold rowMax
  show Finset.fold max (Ideal.ofBits .f32 0xFF800000#32) (fun k : Fin 40 => y (reduces_S5000x40_S5000.lift (ix1 p) k)) Finset.univ = _
  rw [neg_inf]
  exact congrArg (fun f => Finset.fold max ⊥ f Finset.univ) (funext fun k => congrArg y (lift_row p k))

/-- The lane sum of a block at row `p` is the row's sum. -/
theorem lane_sum (z : FVec Ideal S5000x40 .f32) (p : Fin 5000) :
    multiReduction .add [1] S5000 z 0x00000000#32 reduces_S5000x40_S5000 (.inl rfl) rfl (ix1 p) = ∑ k : Fin 40, z (ix2 p k) := by
  refine (Ideal.multiReduction_add_single z 0x00000000#32 reduces_S5000x40_S5000 (.inl rfl) rfl (ix1 p)).trans ?_
  exact Finset.sum_congr rfl fun k _ => congrArg z (lift_row p k)

/-- A per-row value kept as a column and repeated along the lanes reads, at `(p, q)`, the value of row `p`. -/
theorem keepdims_row (v : FVec Ideal S5000 .f32) (p : Fin 5000) (q : Fin 40) :
    broadcastTo S5000x40 (shapeCast S5000x1 v shapeCasts_S5000_S5000x1) broadcasts_S5000x1_S5000x40 (ix2 p q) = v (ix1 p) := by
  rw [broadcastTo_a1_ab_apply, shapeCast_a_a1_apply]

/-- The same through a pointwise logarithm taken on the column. -/
theorem keepdims_log_row (v : FVec Ideal S5000 .f32) (p : Fin 5000) (q : Fin 40) :
    broadcastTo S5000x40 (log (F := Ideal) (shapeCast S5000x1 v shapeCasts_S5000_S5000x1)) broadcasts_S5000x1_S5000x40 (ix2 p q) = Ideal.log (v (ix1 p)) := by
  rw [broadcastTo_a1_ab_apply]
  show Ideal.log (shapeCast S5000x1 v shapeCasts_S5000_S5000x1 (ix2 p (0 : Fin 1))) = _
  rw [shapeCast_a_a1_apply]

/-- The body's stored value is the log-softmax of the block's biased rows. -/
theorem block_logsoftmax (b : Vec Ideal S40 .f32) (A : Vec Ideal S5000x40 .f32) (j : S5000x40.Idx) :
    k2_pay1 (F := Ideal) b A j = logSoftmaxRows (n := 5000) (C := 40) (addBias (n := 5000) (K := 40) A b) j := by
  obtain ⟨p, q, rfl⟩ : ∃ (p : Fin 5000) (q : Fin 40), j = ix2 p q := ⟨j 0, j 1, eq_ix2 j⟩
  unfold k2_pay1
  dsimp only
  generalize hy : addf (F := Ideal) (φ := .f32) (shapeCast S5000x40 A shapeCasts_S5000x40_S5000x40) (broadcastTo S5000x40 (shapeCast S1x40 b shapeCasts_S40_S1x40) broadcasts_S1x40_S5000x40) = y
  have ey : ∀ (r : Fin 5000) (k : Fin 40), y (ix2 r k) = addBias (n := 5000) (K := 40) A b (ix2 r k) := fun r k => by
    rw [← hy]; exact biased_entry b A r k
  have hmax : rowMax (n := 5000) (C := 40) y p = rowMax (n := 5000) (C := 40) (addBias (n := 5000) (K := 40) A b) p := by
    unfold rowMax; exact congrArg (fun f => Finset.fold max ⊥ f Finset.univ) (funext fun k => ey p k)
  -- the shifted block, entry by entry
  have hsh : ∀ k : Fin 40, subf (F := Ideal) y (broadcastTo S5000x40 (shapeCast S5000x1 (multiReduction .maximumf [1] S5000 y 0xFF800000#32 reduces_S5000x40_S5000 (.inl rfl) rfl) shapeCasts_S5000_S5000x1) broadcasts_S5000x1_S5000x40) (ix2 p k)
      = shifted (n := 5000) (C := 40) (addBias (n := 5000) (K := 40) A b) p k := fun k => by
    show y (ix2 p k) - broadcastTo S5000x40 (shapeCast S5000x1 (multiReduction .maximumf [1] S5000 y 0xFF800000#32 reduces_S5000x40_S5000 (.inl rfl) rfl) shapeCasts_S5000_S5000x1) broadcasts_S5000x1_S5000x40 (ix2 p k) = _
    rw [keepdims_row, lane_max, hmax, ey]
    rfl
  generalize hs : subf (F := Ideal) y (broadcastTo S5000x40 (shapeCast S5000x1 (multiReduction .maximumf [1] S5000 y 0xFF800000#32 reduces_S5000x40_S5000 (.inl rfl) rfl) shapeCasts_S5000_S5000x1) broadcasts_S5000x1_S5000x40) = s at hsh ⊢
  show s (ix2 p q) - broadcastTo S5000x40 (log (F := Ideal) (shapeCast S5000x1 (multiReduction .add [1] S5000 (exp (F := Ideal) s) 0x00000000#32 reduces_S5000x40_S5000 (.inl rfl) rfl) shapeCasts_S5000_S5000x1)) broadcasts_S5000x1_S5000x40 (ix2 p q) = _
  rw [keepdims_log_row, lane_sum, hsh q]
  unfold logSoftmaxRows logSumExp
  show shifted (n := 5000) (C := 40) (addBias (n := 5000) (K := 40) A b) p q - Ideal.log (∑ k : Fin 40, Ideal.exp (s (ix2 p k))) = shifted (n := 5000) (C := 40) (addBias (n := 5000) (K := 40) A b) p q - Ideal.log (∑ k : Fin 40, Ideal.exp (shifted (n := 5000) (C := 40) (addBias (n := 5000) (K := 40) A b) p k))
  exact congrArg (fun u => shifted (n := 5000) (C := 40) (addBias (n := 5000) (K := 40) A b) p q - Ideal.log u) (Finset.sum_congr rfl fun k _ => by rw [hsh k])

/-! ## From the blocks to the array -/

variable (V : (c : Dev nD) → (b : Ref sig .tc) → Buf (Elt Ideal) ((c : Thread nD τ).loc b))

/-- The two arrays the region reads, as it finds them, at their literal types. -/
abbrev zs (c : Dev nD) : S100000x40.Idx → EReal := V c main_v57
abbrev bs (c : Dev nD) : S40.Idx → EReal := V c main_arg5

theorem zero_offsets : (![0, 0] : Fin 2 → Nat) = fun _ => 0 := funext fun a => by fin_cases a <;> rfl
theorem zero_offset : (![0] : Fin 1 → Nat) = fun _ => 0 := funext fun a => by fin_cases a; rfl

/-- The printed index maps over the grid: the rows' and the result's block index is the point; the bias is one block. -/
theorem index_maps : ∀ t : Fin cfg2.N, win2_0.index t (0 : Fin 2) = t.val ∧ win2_0.index t (1 : Fin 2) = 0
    ∧ win2_1.index t (0 : Fin 1) = 0
    ∧ win2_2.index t (0 : Fin 2) = t.val ∧ win2_2.index t (1 : Fin 2) = 0 :=
  (by decide +kernel : ∀ t : Fin grid2.N, _)

/-- What point `t` writes back is block `t` of the whole array's log-softmax. -/
theorem flushed_eq (c : Dev nD) (t : Fin cfg2.N) :
    (dat2 (F := Ideal) V c).flushed 2 t
      = ((cfg2.win 2).blk t).view.read (Elt Ideal) (logSoftmaxRows (addBias (zs V c) (bs V c))) := by
  show (cfg2.win 2).cut (grid2.coords t) ((dat2 V c).after 2 t) = _
  rw [after2_2]
  unfold out2_2
  rw [View.canon_unit_zero zero_offsets]
  simp only [View.ld_unit_zero (S := S5000x40) zero_offsets, View.ld_unit_zero (S := S40) zero_offset]
  obtain ⟨e0, e1, e2, e3, e4⟩ := index_maps t
  funext j
  show k2_pay1 (F := Ideal) (iblk2 V c 1 t) (iblk2 V c 0 t) j = logSoftmaxRows (addBias (zs V c) (bs V c)) (((cfg2.win 2).blk t).view.emb j)
  refine (block_logsoftmax (iblk2 V c 1 t) (iblk2 V c 0 t) j).trans ?_
  refine logSoftmaxRows_congr_row _ _ j (((cfg2.win 2).blk t).view.emb j) (fun k => ?_) ?_
  · have hx : ((cfg2.win 0).blk t).view.emb (ix2 (row j) k) = ix2 (row (((cfg2.win 2).blk t).view.emb j)) k := by
      funext a; apply Fin.ext
      match a with
      | ⟨0, _⟩ => show win2_0.index t (0 : Fin 2) * 5000 + 1 * (j 0).val = win2_2.index t (0 : Fin 2) * 5000 + 1 * (j 0).val; omega
      | ⟨1, _⟩ => show win2_0.index t (1 : Fin 2) * 40 + 1 * k.val = k.val; omega
    have hb : ((cfg2.win 1).blk t).view.emb (ix1 k) = ix1 k := by
      funext a; apply Fin.ext
      match a with
      | ⟨0, _⟩ => show win2_1.index t (0 : Fin 1) * 40 + 1 * k.val = k.val; omega
    show zs V c (((cfg2.win 0).blk t).view.emb (ix2 (row j) k)) + bs V c (((cfg2.win 1).blk t).view.emb (ix1 k))
      = zs V c (ix2 (row (((cfg2.win 2).blk t).view.emb j)) k) + bs V c (ix1 k)
    rw [hx, hb]
  · apply Fin.ext
    show (j 1).val = win2_2.index t (1 : Fin 2) * 40 + 1 * (j 1).val
    omega

/-- An index of the result array is in point `t`'s block iff each coordinate is in the block's range. -/
theorem mem_blk (t : Fin cfg2.N) (i : S100000x40.Idx) :
    i ∈ ((cfg2.win 2).blk t).view.set ↔ ∀ a : Fin 2, win2_2.index t a * S5000x40.size a ≤ (i a).val ∧ (i a).val < win2_2.index t a * S5000x40.size a + S5000x40.size a := by
  show i ∈ ((View.whole main_v58).slice (win2_2.rect t)).set ↔ _
  rw [View.set_slice_whole, Rect.mem_set_unit]
  exact Iff.rfl

/-- THE ARRAY after the region. Row `r` is written by point `r / 5000`. -/
theorem final (c : Dev nD) :
    (dat2 (F := Ideal) V c).arrAt 2 cfg2.N = logSoftmaxRows (addBias (zs V c) (bs V c)) :=
  (dat2 (F := Ideal) V c).arrAt_eq_of_cover 2 _ (fun t _ => flushed_eq V c t) fun i => by
    have hi0 : (i 0).val < 100000 := (i 0).isLt
    have hi1 : (i 1).val < 40 := (i 1).isLt
    have hN : cfg2.N = 20 := N_2
    let t : Fin cfg2.N := ⟨(i 0).val / 5000, by omega⟩
    obtain ⟨e0, e1, e2, e3, e4⟩ := index_maps t
    refine ⟨t, flush2_2 t, ?_⟩
    rw [mem_blk]
    intro a
    match a with
    | ⟨0, _⟩ => show win2_2.index t (0 : Fin 2) * 5000 ≤ (i 0).val ∧ (i 0).val < win2_2.index t (0 : Fin 2) * 5000 + 5000; rw [e3]; show (i 0).val / 5000 * 5000 ≤ (i 0).val ∧ (i 0).val < (i 0).val / 5000 * 5000 + 5000; omega
    | ⟨1, _⟩ => show win2_2.index t (1 : Fin 2) * 40 ≤ (i 1).val ∧ (i 1).val < win2_2.index t (1 : Fin 2) * 40 + 40; omega

end Cert.KernelIdeal.Region2

end
-- ==== Proof.KernelFold.lean ====
/-
  The contents of the kernel program's buffers at its segment boundaries, read back. No host operation and no
  region writes an argument array, so each argument read at a region's entry is the launch memory's; and each region
  leaves in its result array the dense stage of what it found in the arrays it reads.
-/
import proofs.«112764_j29540785062187_1_alg».proof.Proof.Gen.KernelIdeal.Frame
import proofs.«112764_j29540785062187_1_alg».proof.Proof.Region0Value
import proofs.«112764_j29540785062187_1_alg».proof.Proof.Region1Value
import proofs.«112764_j29540785062187_1_alg».proof.Proof.Region2Value
import Idealize.ShloMosaic.Lib.StableHlo.Run

set_option maxRecDepth 16384

noncomputable section

namespace Cert.KernelIdeal.Fold

open Cert.KernelIdeal Cert.KernelIdeal.Gen Cert.GcnSpec
open Idealize.ShloMosaic Idealize.ShloMosaic.TcCoe Idealize.ShloMosaic.StableHlo Idealize.SL.Sem

variable (m : (ℓ : Loc nD τ sig) → Buf (Elt Ideal) ℓ) (ρ : Dev nD → PrngReg)

/-! ## The arguments at the regions' entries -/

theorem W3_arg0 (c : Dev nD) : W3 m ρ c (Proc.devRef .tc main_arg0) = m ((c : Thread nD τ).loc main_arg0) := by
  show after hostOps0_2 (after hostOps0_1 (after hostOps0 (W0 m ρ c))) (Proc.devRef .tc main_arg0) = _
  after_results
  all_goals rfl
theorem W3_arg2 (c : Dev nD) : W3 m ρ c (Proc.devRef .tc main_arg2) = m ((c : Thread nD τ).loc main_arg2) := by
  show after hostOps0_2 (after hostOps0_1 (after hostOps0 (W0 m ρ c))) (Proc.devRef .tc main_arg2) = _
  after_results
  all_goals rfl
theorem W3_arg3 (c : Dev nD) : W3 m ρ c (Proc.devRef .tc main_arg3) = m ((c : Thread nD τ).loc main_arg3) := by
  show after hostOps0_2 (after hostOps0_1 (after hostOps0 (W0 m ρ c))) (Proc.devRef .tc main_arg3) = _
  after_results
  all_goals rfl
theorem W3_arg4 (c : Dev nD) : W3 m ρ c (Proc.devRef .tc main_arg4) = m ((c : Thread nD τ).loc main_arg4) := by
  show after hostOps0_2 (after hostOps0_1 (after hostOps0 (W0 m ρ c))) (Proc.devRef .tc main_arg4) = _
  after_results
  all_goals rfl
theorem W3_arg5 (c : Dev nD) : W3 m ρ c (Proc.devRef .tc main_arg5) = m ((c : Thread nD τ).loc main_arg5) := by
  show after hostOps0_2 (after hostOps0_1 (after hostOps0 (W0 m ρ c))) (Proc.devRef .tc main_arg5) = _
  after_results
  all_goals rfl

theorem W5_arg3 (c : Dev nD) : W5 m ρ c (Proc.devRef .tc main_arg3) = m ((c : Thread nD τ).loc main_arg3) := by
  show after hostOps1 (W4 m ρ c) (Proc.devRef .tc main_arg3) = _
  after_results
  exact (W4_of_ne m ρ c main_arg3 (by decide)).trans (W3_arg3 m ρ c)
theorem W5_arg4 (c : Dev nD) : W5 m ρ c (Proc.devRef .tc main_arg4) = m ((c : Thread nD τ).loc main_arg4) := by
  show after hostOps1 (W4 m ρ c) (Proc.devRef .tc main_arg4) = _
  after_results
  exact (W4_of_ne m ρ c main_arg4 (by decide)).trans (W3_arg4 m ρ c)
theorem W5_arg5 (c : Dev nD) : W5 m ρ c (Proc.devRef .tc main_arg5) = m ((c : Thread nD τ).loc main_arg5) := by
  show after hostOps1 (W4 m ρ c) (Proc.devRef .tc main_arg5) = _
  after_results
  exact (W4_of_ne m ρ c main_arg5 (by decide)).trans (W3_arg5 m ρ c)
theorem W7_arg5 (c : Dev nD) : W7 m ρ c (Proc.devRef .tc main_arg5) = m ((c : Thread nD τ).loc main_arg5) := by
  show after hostOps2 (W6 m ρ c) (Proc.devRef .tc main_arg5) = _
  after_results
  exact (W6_of_ne m ρ c main_arg5 (by decide)).trans (W5_arg5 m ρ c)

/-! ## The regions' result arrays -/

/-- After the first region its result array holds the product of the two arguments it reads. -/
theorem W4_v30 (c : Dev nD) :
    W4 m ρ c (Proc.devRef .tc main_v30) = dense (n := 100000) (K := 512) (m := 16) (m ((c : Thread nD τ).loc main_arg0)) (m ((c : Thread nD τ).loc main_arg2)) := by
  refine (W4_arr m ρ c 2).trans ((Region0.final (V3 m ρ) c).trans ?_)
  show dense (n := 100000) (K := 512) (m := 16) (W3 m ρ c (Proc.devRef .tc main_arg0)) (W3 m ρ c (Proc.devRef .tc main_arg2)) = _
  rw [W3_arg0, W3_arg2]

/-- After the second region its result array holds the hidden rows (of what the region finds aggregated) times the
    second weights. -/
theorem W6_v44 (c : Dev nD) :
    W6 m ρ c (Proc.devRef .tc main_v44) = dense (n := 100000) (K := 16) (m := 40) (biasRelu (n := 100000) (K := 16) (W5 m ρ c (Proc.devRef .tc main_v43)) (m ((c : Thread nD τ).loc main_arg3))) (m ((c : Thread nD τ).loc main_arg4)) := by
  refine (W6_arr m ρ c 3).trans ((Region1.final (V5 m ρ) c).trans ?_)
  show dense (n := 100000) (K := 16) (m := 40) (biasRelu (n := 100000) (K := 16) (W5 m ρ c (Proc.devRef .tc main_v43)) (W5 m ρ c (Proc.devRef .tc main_arg3))) (W5 m ρ c (Proc.devRef .tc main_arg4)) = _
  rw [W5_arg3, W5_arg4]

/-- After the last region the result array holds the log-softmax of the biased rows the region finds. -/
theorem W8_v58 (c : Dev nD) :
    W8 m ρ c (Proc.devRef .tc main_v58) = logSoftmaxRows (n := 100000) (C := 40) (addBias (n := 100000) (K := 40) (W7 m ρ c (Proc.devRef .tc main_v57)) (m ((c : Thread nD τ).loc main_arg5))) := by
  refine (W8_arr m ρ c 2).trans ((Region2.final (V7 m ρ) c).trans ?_)
  show logSoftmaxRows (n := 100000) (C := 40) (addBias (n := 100000) (K := 40) (W7 m ρ c (Proc.devRef .tc main_v57)) (W7 m ρ c (Proc.devRef .tc main_arg5))) = _
  rw [W7_arg5]

end Cert.KernelIdeal.Fold

end
-- ==== Proof.RefStages.lean ====
/-
  The reference program stage by stage, as functions of the intermediate arrays rather than of the six arguments:
  the neighbour aggregation (gather rows by source node, scale by the edge weight, scatter-add by destination node)
  as one function of the layer it aggregates, the hidden activation, the second product, the bias and the log-softmax.
  The reference's result is their composition. At the ideal values the three dense stages are the specification's:
  a host `dot_general` with one contracted axis is the plain sum; the `max(−∞, ·)` jax puts around the row maximum is
  the identity; a host sum from zero is the sum.
-/
import proofs.«112764_j29540785062187_1_alg».proof.Proof.RefRead
import proofs.«112764_j29540785062187_1_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.ReferenceIdeal.Stages

open Cert.ReferenceIdeal Cert.ReferenceIdeal.Gen Cert.ReferenceIdeal.ReadP Cert.GcnSpec
open Idealize.ShloMosaic Idealize.ShloMosaic.TcCoe Idealize.ShloMosaic.ValueIdx Idealize.SL.Sem Idealize.ShloMosaic.StableHlo

/-! ## The stages as functions of what they read -/

section Chain

variable {F : FTy → Type} [FloatOps F]

/-- Aggregation of a 16-column layer over the edges (the self loops included). -/
def propagate16 (e : (⟨S2x3200000, .i32⟩ : BufTy).Contents (Elt F)) (h : (⟨S100000x16, .f32⟩ : BufTy).Contents (Elt F)) : (⟨S100000x16, .f32⟩ : BufTy).Contents (Elt F) :=
  Host.scatterAdd scatter_S100000x16_S3300000x1_S3300000x16_1_0_0_1 (val_main_v41 (F := F)) (val_main_v42 (F := F) e)
    (mulf (Host.gather gather_S100000x16_S3300000x1_S3300000x16_1_0_n_n_0_1_116 h (val_main_v36 (F := F) e)) (val_main_v39 (F := F) e))

/-- Aggregation of a 40-column layer over the edges (the self loops included). -/
def propagate40 (e : (⟨S2x3200000, .i32⟩ : BufTy).Contents (Elt F)) (h : (⟨S100000x40, .f32⟩ : BufTy).Contents (Elt F)) : (⟨S100000x40, .f32⟩ : BufTy).Contents (Elt F) :=
  Host.scatterAdd scatter_S100000x40_S3300000x1_S3300000x40_1_0_0_1 (val_main_v85 (F := F)) (val_main_v86 (F := F) e)
    (mulf (Host.gather gather_S100000x40_S3300000x1_S3300000x40_1_0_n_n_0_1_140 h (val_main_v80 (F := F) e)) (val_main_v83 (F := F) e))

/-- The hidden activation: bias added, clamped below at zero. -/
def hiddenRows (a : (⟨S100000x16, .f32⟩ : BufTy).Contents (Elt F)) (b : (⟨S16, .f32⟩ : BufTy).Contents (Elt F)) : (⟨S100000x16, .f32⟩ : BufTy).Contents (Elt F) :=
  maximumf (addf a (val_main_v45 (F := F) b)) (val_main_call1_v0 (F := F))

/-- The second product. -/
def linear2 (a : (⟨S100000x16, .f32⟩ : BufTy).Contents (Elt F)) (w : (⟨S16x40, .f32⟩ : BufTy).Contents (Elt F)) : (⟨S100000x40, .f32⟩ : BufTy).Contents (Elt F) :=
  Host.dotGeneral dot_S100000x16_S16x40_S100000x40_1_0_0_1_n_n none a w

/-- The output bias added. -/
def biased (z : (⟨S100000x40, .f32⟩ : BufTy).Contents (Elt F)) (b : (⟨S40, .f32⟩ : BufTy).Contents (Elt F)) : (⟨S100000x40, .f32⟩ : BufTy).Contents (Elt F) :=
  addf z (val_main_v89 (F := F) b)

/-- Each row's maximum (jax takes it against `-∞` once more). -/
def rowMaxCol (y : (⟨S100000x40, .f32⟩ : BufTy).Contents (Elt F)) : (⟨S100000, .f32⟩ : BufTy).Contents (Elt F) :=
  maximumf (val_main_call3_v1 (F := F)) (Host.reduce FloatOps.maximumf y (val_main_call3_cst (F := F)) reducesTo_S100000x40_S100000_d1 h_S_)

/-- Each row less its maximum. -/
def shiftRows (y : (⟨S100000x40, .f32⟩ : BufTy).Contents (Elt F)) : (⟨S100000x40, .f32⟩ : BufTy).Contents (Elt F) :=
  subf y (broadcastInDim S100000x40 ![0, 1] bcast_S100000x1_S100000x40_0_1 (broadcastInDim S100000x1 ![0] bcast_S100000_S100000x1_0 (rowMaxCol y)))

/-- The log-softmax of each row. -/
def logSoftmax (y : (⟨S100000x40, .f32⟩ : BufTy).Contents (Elt F)) : (⟨S100000x40, .f32⟩ : BufTy).Contents (Elt F) :=
  subf (shiftRows y) (broadcastInDim S100000x40 ![0, 1] bcast_S100000x1_S100000x40_0_1 (Host.log (broadcastInDim S100000x1 ![0] bcast_S100000_S100000x1_0
    (Host.reduceAdd (Host.exp (shiftRows y)) (val_main_call3_cst_1 (F := F)) reducesTo_S100000x40_S100000_d1 h_S_))))

variable (x0 : (⟨S100000x512, .f32⟩ : BufTy).Contents (Elt F)) (x1 : (⟨S2x3200000, .i32⟩ : BufTy).Contents (Elt F)) (x2 : (⟨S512x16, .f32⟩ : BufTy).Contents (Elt F)) (x3 : (⟨S16, .f32⟩ : BufTy).Contents (Elt F)) (x4 : (⟨S16x40, .f32⟩ : BufTy).Contents (Elt F)) (x5 : (⟨S40, .f32⟩ : BufTy).Contents (Elt F))

theorem stage_v43 : val_main_v43 (F := F) x0 x1 x2 = propagate16 x1 (val_main_v30 (F := F) x0 x2) := rfl
theorem stage_v47 : val_main_v47 (F := F) x0 x1 x2 x3 = hiddenRows (val_main_v43 (F := F) x0 x1 x2) x3 := rfl
theorem stage_v74 : val_main_v74 (F := F) x0 x1 x2 x3 x4 = linear2 (val_main_v47 (F := F) x0 x1 x2 x3) x4 := rfl
theorem stage_v87 : val_main_v87 (F := F) x0 x1 x2 x3 x4 = propagate40 x1 (val_main_v74 (F := F) x0 x1 x2 x3 x4) := rfl
theorem stage_v90 : val_main_v90 (F := F) x0 x1 x2 x3 x4 x5 = biased (val_main_v87 (F := F) x0 x1 x2 x3 x4) x5 := rfl
theorem stage_v91 : val_main_v91 (F := F) x0 x1 x2 x3 x4 x5 = logSoftmax (val_main_v90 (F := F) x0 x1 x2 x3 x4 x5) := rfl

/-- The reference's result is the composition of the stages. -/
theorem result_chain : val_main_v91 (F := F) x0 x1 x2 x3 x4 x5
    = logSoftmax (biased (propagate40 x1 (linear2 (hiddenRows (propagate16 x1 (val_main_v30 (F := F) x0 x2)) x3) x4)) x5) := by
  rw [stage_v91, stage_v90, stage_v87, stage_v74, stage_v47, stage_v43]

/-- The second layer recomputes the node lists and the edge weights from the same edge list: the same arrays. -/
theorem src_again : val_main_v49 (F := F) x1 = val_main_v5 (F := F) x1 := rfl
theorem dst_again : val_main_v50 (F := F) x1 = val_main_v6 (F := F) x1 := rfl
theorem norm_again : val_main_v73 (F := F) x1 = val_main_v29 (F := F) x1 := rfl

end Chain

/-! ## The dense stages at the ideal values -/

/-- The first product is the specification's. -/
theorem linear1_eq (x0 : (⟨S100000x512, .f32⟩ : BufTy).Contents (Elt Ideal)) (x2 : (⟨S512x16, .f32⟩ : BufTy).Contents (Elt Ideal)) :
    val_main_v30 (F := Ideal) x0 x2 = dense (n := 100000) (K := 512) (m := 16) x0 x2 := by
  funext i
  rw [val_main_v30_apply]
  unfold dense
  refine Finset.sum_congr rfl fun k _ => ?_
  have e1 : lidx_main_v30 i k = ix2 (row i) k := funext fun a => by match a with | ⟨0, _⟩ => rfl | ⟨1, _⟩ => rfl
  have e2 : ridx_main_v30 i k = ix2 k (col i) := funext fun a => by match a with | ⟨0, _⟩ => rfl | ⟨1, _⟩ => rfl
  rw [e1, e2]

/-- The hidden activation at an index. -/
theorem hidden_entry (a : (⟨S100000x16, .f32⟩ : BufTy).Contents (Elt Ideal)) (b : (⟨S16, .f32⟩ : BufTy).Contents (Elt Ideal)) (r : Fin 100000) (k : Fin 16) :
    hiddenRows (F := Ideal) a b (ix2 r k) = biasRelu (n := 100000) (K := 16) a b (ix2 r k) := by
  show max (a (ix2 r k) + val_main_v45 (F := Ideal) b (ix2 r k)) (val_main_call1_v0 (F := Ideal) (ix2 r k)) = max (a (ix2 r k) + b (ix1 k)) 0
  rw [val_main_v45_apply, val_main_v44_apply, val_main_call1_v0_apply, val_main_call1_cst_apply]
  have eb : idx_main_v44 (idx_main_v45 (ix2 r k)) = ix1 k := funext fun a => by match a with | ⟨0, _⟩ => rfl
  rw [eb]
  show max (a (ix2 r k) + b (ix1 k)) (Ideal.ofBits .f32 0x00000000#32) = _
  rw [Ideal.ofBits_zero_f32]

/-- The second product of the hidden rows is the specification's. -/
theorem linear2_eq (a : (⟨S100000x16, .f32⟩ : BufTy).Contents (Elt Ideal)) (b : (⟨S16, .f32⟩ : BufTy).Contents (Elt Ideal)) (w : (⟨S16x40, .f32⟩ : BufTy).Contents (Elt Ideal)) :
    linear2 (F := Ideal) (hiddenRows (F := Ideal) a b) w = dense (n := 100000) (K := 16) (m := 40) (biasRelu (n := 100000) (K := 16) a b) w := by
  funext i
  unfold linear2 dense
  simp only [Host.dotGeneral]
  rw [Ideal.dotGeneral_apply, ← Equiv.sum_comp (contrEquiv1 dot_S100000x16_S16x40_S100000x40_1_0_0_1_n_n 16 rfl rfl).symm]
  refine Finset.sum_congr rfl fun k _ => ?_
  have hk := contrEquiv1_symm_val dot_S100000x16_S16x40_S100000x40_1_0_0_1_n_n 16 rfl rfl k
  have el : dot_S100000x16_S16x40_S100000x40_1_0_0_1_n_n.lhsIdx i ((contrEquiv1 dot_S100000x16_S16x40_S100000x40_1_0_0_1_n_n 16 rfl rfl).symm k) = ix2 (row i) k := funext fun a => Fin.ext (by
    match a with
    | ⟨0, _⟩ => exact lhs_main_v74_0 _ _
    | ⟨1, _⟩ => exact (lhs_main_v74_1 _ _).trans hk)
  have er : dot_S100000x16_S16x40_S100000x40_1_0_0_1_n_n.rhsIdx i ((contrEquiv1 dot_S100000x16_S16x40_S100000x40_1_0_0_1_n_n 16 rfl rfl).symm k) = ix2 k (col i) := funext fun a => Fin.ext (by
    match a with
    | ⟨0, _⟩ => exact (rhs_main_v74_0 _ _).trans hk
    | ⟨1, _⟩ => exact rhs_main_v74_1 _ _)
  rw [el, er]
  exact congrArg (· * w (ix2 k (col i))) (hidden_entry a b (row i) k)

/-- The output bias at an index. -/
theorem biased_entry (z : (⟨S100000x40, .f32⟩ : BufTy).Contents (Elt Ideal)) (b : (⟨S40, .f32⟩ : BufTy).Contents (Elt Ideal)) (i : S100000x40.Idx) :
    biased (F := Ideal) z b i = addBias (n := 100000) (K := 40) z b i := by
  show z i + val_main_v89 (F := Ideal) b i = z i + b (ix1 (col i))
  rw [val_main_v89_apply, val_main_v88_apply]
  exact congrArg (z i + b ·) (funext fun a => by match a with | ⟨0, _⟩ => rfl)

theorem neg_inf : (Ideal.ofBits .f32 0xFF800000#32 : EReal) = ⊥ := by simp [Ideal.ofBits, Ideal.ieee]

/-- A per-row value kept as a column and repeated along the row reads, at `(r, c)`, the value of row `r`. -/
theorem col_bcast {α : Type} (v : S100000.Idx → α) (r : Fin 100000) (c : Fin 40) :
    broadcastInDim S100000x40 ![0, 1] bcast_S100000x1_S100000x40_0_1 (broadcastInDim S100000x1 ![0] bcast_S100000_S100000x1_0 v) (ix2 r c) = v (ix1 r) := by
  refine (broadcastInDim_apply _ bcast_S100000x1_S100000x40_0_1 _ (ix2 r c) (ix2 r (0 : Fin 1)) (fun a => match a with
    | ⟨0, _⟩ => by show r.val = if (100000 : Nat) = 1 then 0 else r.val; rw [if_neg (by decide)]
    | ⟨1, _⟩ => by show 0 = if (1 : Nat) = 1 then 0 else c.val; rw [if_pos rfl])).trans ?_
  exact broadcastInDim_apply _ bcast_S100000_S100000x1_0 v (ix2 r (0 : Fin 1)) (ix1 r) (fun a => match a with
    | ⟨0, _⟩ => by show r.val = if (100000 : Nat) = 1 then 0 else r.val; rw [if_neg (by decide)])

/-- The same through a pointwise logarithm taken on the column. -/
theorem col_log_bcast (v : FVec Ideal S100000 .f32) (r : Fin 100000) (c : Fin 40) :
    broadcastInDim S100000x40 ![0, 1] bcast_S100000x1_S100000x40_0_1 (Host.log (F := Ideal) (φ := .f32) (broadcastInDim S100000x1 ![0] bcast_S100000_S100000x1_0 v)) (ix2 r c) = Ideal.log (v (ix1 r)) := by
  refine (broadcastInDim_apply _ bcast_S100000x1_S100000x40_0_1 _ (ix2 r c) (ix2 r (0 : Fin 1)) (fun a => match a with
    | ⟨0, _⟩ => by show r.val = if (100000 : Nat) = 1 then 0 else r.val; rw [if_neg (by decide)]
    | ⟨1, _⟩ => by show 0 = if (1 : Nat) = 1 then 0 else c.val; rw [if_pos rfl])).trans ?_
  show Ideal.log (broadcastInDim S100000x1 ![0] bcast_S100000_S100000x1_0 v (ix2 r (0 : Fin 1))) = _
  exact congrArg Ideal.log (broadcastInDim_apply _ bcast_S100000_S100000x1_0 v (ix2 r (0 : Fin 1)) (ix1 r) (fun a => match a with
    | ⟨0, _⟩ => by show r.val = if (100000 : Nat) = 1 then 0 else r.val; rw [if_neg (by decide)]))

/-- The reduced index `r` with the column coordinate put back. -/
theorem lift_row (hr : S100000x40.Reduces [1] S100000) (r : Fin 100000) (k : Fin (S100000x40.size 1)) :
    hr.lift (ix1 r) k = ix2 r (⟨k.val, k.isLt⟩ : Fin 40) :=
  funext fun a => Fin.ext (by match a with | ⟨0, _⟩ => rfl | ⟨1, _⟩ => rfl)

/-- The row maximum as jax takes it is the row's maximum folded from `-∞`. -/
theorem hostRowMax_apply (y : FVec Ideal S100000x40 .f32) (r : Fin 100000) :
    Host.reduce (FloatOps.maximumf (F := Ideal) (φ := .f32)) y (val_main_call3_cst (F := Ideal)) reducesTo_S100000x40_S100000_d1 h_S_ (ix1 r)
      = rowMax (n := 100000) (C := 40) y r := by
  have hr : S100000x40.Reduces [1] S100000 := ⟨reducesTo_S100000x40_S100000_d1.1, Nat.one_pos, reducesTo_S100000x40_S100000_d1.2⟩
  refine (Host.reduce_eq_fold_single (FloatOps.maximumf (F := Ideal) (φ := .f32)) y _ reducesTo_S100000x40_S100000_d1 hr h_S_ (ix1 r)).trans ?_
  rw [val_main_call3_cst_apply]
  show Finset.fold max (Ideal.ofBits .f32 0xFF800000#32) (fun k : Fin 40 => y (hr.lift (ix1 r) k)) Finset.univ = _
  rw [neg_inf]
  unfold rowMax
  exact congrArg (fun f => Finset.fold max ⊥ f Finset.univ) (funext fun k => congrArg y (lift_row hr r k))

theorem rowMaxCol_apply (y : FVec Ideal S100000x40 .f32) (r : Fin 100000) :
    rowMaxCol (F := Ideal) y (ix1 r) = rowMax (n := 100000) (C := 40) y r := by
  unfold rowMaxCol
  rw [maximumf_apply, hostRowMax_apply, val_main_call3_v1_apply, val_main_call3_cst_0_apply]
  show max (Ideal.ofBits .f32 0xFF800000#32) _ = _
  rw [neg_inf, max_eq_right bot_le]

/-- A shifted entry. -/
theorem shiftRows_apply (y : FVec Ideal S100000x40 .f32) (r : Fin 100000) (k : Fin 40) :
    shiftRows (F := Ideal) y (ix2 r k) = shifted (n := 100000) (C := 40) y r k := by
  show y (ix2 r k) - broadcastInDim S100000x40 ![0, 1] bcast_S100000x1_S100000x40_0_1 (broadcastInDim S100000x1 ![0] bcast_S100000_S100000x1_0 (rowMaxCol (F := Ideal) y)) (ix2 r k) = _
  rw [col_bcast, rowMaxCol_apply]
  rfl

/-- The host's sum of a row from zero. -/
theorem rowSum_apply (z : FVec Ideal S100000x40 .f32) (r : Fin 100000) :
    Host.reduceAdd (F := Ideal) (φ := .f32) z (val_main_call3_cst_1 (F := Ideal)) reducesTo_S100000x40_S100000_d1 h_S_ (ix1 r) = ∑ k : Fin 40, z (ix2 r k) := by
  have hr : S100000x40.Reduces [1] S100000 := by decide
  simp only [Host.reduceAdd, Ideal.hostReduceAdd_def]
  rw [Ideal.hostReduceAdd_single reducesTo_S100000x40_S100000_d1 hr, val_main_call3_cst_1_apply]
  show Ideal.ofBits .f32 0x00000000#32 + _ = _
  rw [Ideal.ofBits_zero_f32, zero_add]
  exact Finset.sum_congr rfl fun k _ => congrArg z (lift_row hr r k)

/-- The log-softmax of the biased rows is the specification's. -/
theorem logSoftmax_eq (y : FVec Ideal S100000x40 .f32) :
    logSoftmax (F := Ideal) y = logSoftmaxRows (n := 100000) (C := 40) y := by
  funext i
  obtain ⟨r, c, rfl⟩ : ∃ (r : Fin 100000) (c : Fin 40), i = ix2 r c := ⟨i 0, i 1, eq_ix2 i⟩
  show shiftRows (F := Ideal) y (ix2 r c) - broadcastInDim S100000x40 ![0, 1] bcast_S100000x1_S100000x40_0_1 (Host.log (F := Ideal) (φ := .f32) (broadcastInDim S100000x1 ![0] bcast_S100000_S100000x1_0
    (Host.reduceAdd (F := Ideal) (φ := .f32) (Host.exp (F := Ideal) (φ := .f32) (shiftRows (F := Ideal) y)) (val_main_call3_cst_1 (F := Ideal)) reducesTo_S100000x40_S100000_d1 h_S_))) (ix2 r c) = _
  rw [col_log_bcast, rowSum_apply, shiftRows_apply]
  unfold logSoftmaxRows logSumExp
  show shifted (n := 100000) (C := 40) y r c - Ideal.log (∑ k : Fin 40, Ideal.exp (shiftRows (F := Ideal) y (ix2 r k))) = shifted (n := 100000) (C := 40) y r c - Ideal.log (∑ k : Fin 40, Ideal.exp (shifted (n := 100000) (C := 40) y r k))
  exact congrArg (fun u => shifted (n := 100000) (C := 40) y r c - Ideal.log u) (Finset.sum_congr rfl fun k _ => by rw [shiftRows_apply])

/-- The reference's result, at the ideal values, with its three dense stages the specification's. -/
theorem result_eq (x0 : (⟨S100000x512, .f32⟩ : BufTy).Contents (Elt Ideal)) (x1 : (⟨S2x3200000, .i32⟩ : BufTy).Contents (Elt Ideal)) (x2 : (⟨S512x16, .f32⟩ : BufTy).Contents (Elt Ideal)) (x3 : (⟨S16, .f32⟩ : BufTy).Contents (Elt Ideal)) (x4 : (⟨S16x40, .f32⟩ : BufTy).Contents (Elt Ideal)) (x5 : (⟨S40, .f32⟩ : BufTy).Contents (Elt Ideal)) :
    val_main_v91 (F := Ideal) x0 x1 x2 x3 x4 x5
      = logSoftmaxRows (n := 100000) (C := 40) (addBias (n := 100000) (K := 40)
          (propagate40 (F := Ideal) x1 (dense (n := 100000) (K := 16) (m := 40) (biasRelu (n := 100000) (K := 16)
            (propagate16 (F := Ideal) x1 (dense (n := 100000) (K := 512) (m := 16) x0 x2)) x3) x4)) x5) := by
  rw [result_chain, logSoftmax_eq, linear1_eq, linear2_eq]
  exact congrArg (logSoftmaxRows (n := 100000) (C := 40)) (funext fun i => biased_entry _ _ i)

end Cert.ReferenceIdeal.Stages

end
-- ==== Proof.KernelBridge.lean ====
/-
  The kernel program's host stretches are the reference's: between its three dense regions the kernel program runs
  the same neighbour aggregation (the node lists with the self loops appended, the degrees, the edge weights, the
  gather, the scaling, the scatter-add), once for the weights and once per layer for the aggregation. Read back
  stretch by stretch from the launch memory, each boundary's contents are the reference's stage of the edge list,
  so the kernel program's result is the reference's result function of the six arguments.
-/
import proofs.«112764_j29540785062187_1_alg».proof.Proof.KernelFold
import proofs.«112764_j29540785062187_1_alg».proof.Proof.RefStages
import Idealize.ShloMosaic.Lib.StableHlo.Run

set_option maxRecDepth 16384

noncomputable section

namespace Cert.KernelIdeal.Bridge

open Cert.KernelIdeal Cert.KernelIdeal.Gen Cert.GcnSpec
open Idealize.ShloMosaic Idealize.ShloMosaic.TcCoe Idealize.ShloMosaic.StableHlo Idealize.SL.Sem

section Stretches

variable {F : FTy → Type} [FloatOps F]
variable (m : (ℓ : Loc nD τ sig) → Buf (Elt F) ℓ) (ρ : Dev nD → PrngReg)

/-- The edge list as launched. -/
abbrev edges (c : Dev nD) := m ((c : Thread nD τ).loc main_arg1)

/-! ### After the first stretch: the node lists, the degrees' comparison and inverse square root -/

theorem W1_v5 (c : Dev nD) : W1 m ρ c (Proc.devRef .tc main_v5) = Cert.ReferenceIdeal.ReadP.val_main_v5 (F := F) (edges m c) := by
  show after hostOps0 (W0 m ρ c) (Proc.devRef .tc main_v5) = _
  after_results
  all_goals rfl
theorem W1_v6 (c : Dev nD) : W1 m ρ c (Proc.devRef .tc main_v6) = Cert.ReferenceIdeal.ReadP.val_main_v6 (F := F) (edges m c) := by
  show after hostOps0 (W0 m ρ c) (Proc.devRef .tc main_v6) = _
  after_results
  all_goals rfl
theorem W1_v12 (c : Dev nD) : W1 m ρ c (Proc.devRef .tc main_v12) = Cert.ReferenceIdeal.ReadP.val_main_v12 (F := F) (edges m c) := by
  show after hostOps0 (W0 m ρ c) (Proc.devRef .tc main_v12) = _
  after_results
  all_goals rfl
theorem W1_v13 (c : Dev nD) : W1 m ρ c (Proc.devRef .tc main_v13) = Cert.ReferenceIdeal.ReadP.val_main_v13 (F := F) (edges m c) := by
  show after hostOps0 (W0 m ρ c) (Proc.devRef .tc main_v13) = _
  after_results
  all_goals rfl
theorem W1_cst_2 (c : Dev nD) : W1 m ρ c (Proc.devRef .tc main_cst_2) = Cert.ReferenceIdeal.ReadP.val_main_cst_2 (F := F) := by
  show after hostOps0 (W0 m ρ c) (Proc.devRef .tc main_cst_2) = _
  after_results
  all_goals rfl

/-! ### After the select: the inverse square roots of the degrees -/

theorem W2_v14 (c : Dev nD) : W2 m ρ c (Proc.devRef .tc main_v14) = Cert.ReferenceIdeal.ReadP.val_main_v14 (F := F) (edges m c) := by
  have h12 := W1_v12 m ρ c
  have h13 := W1_v13 m ρ c
  have hc := W1_cst_2 m ρ c
  show after hostOps0_1 (W1 m ρ c) (Proc.devRef .tc main_v14) = _
  generalize W1 m ρ c = U at h12 h13 hc ⊢
  after_results
  rw [h12, h13, hc]
  rfl
theorem W2_v5 (c : Dev nD) : W2 m ρ c (Proc.devRef .tc main_v5) = Cert.ReferenceIdeal.ReadP.val_main_v5 (F := F) (edges m c) := by
  have h := W1_v5 m ρ c
  show after hostOps0_1 (W1 m ρ c) (Proc.devRef .tc main_v5) = _
  generalize W1 m ρ c = U at h ⊢
  after_results
  exact h
theorem W2_v6 (c : Dev nD) : W2 m ρ c (Proc.devRef .tc main_v6) = Cert.ReferenceIdeal.ReadP.val_main_v6 (F := F) (edges m c) := by
  have h := W1_v6 m ρ c
  show after hostOps0_1 (W1 m ρ c) (Proc.devRef .tc main_v6) = _
  generalize W1 m ρ c = U at h ⊢
  after_results
  exact h

/-! ### At the first region's entry: the edge weights -/

theorem W3_v29 (c : Dev nD) : W3 m ρ c (Proc.devRef .tc main_v29) = Cert.ReferenceIdeal.ReadP.val_main_v29 (F := F) (edges m c) := by
  have h14 := W2_v14 m ρ c
  have h5 := W2_v5 m ρ c
  have h6 := W2_v6 m ρ c
  show after hostOps0_2 (W2 m ρ c) (Proc.devRef .tc main_v29) = _
  generalize W2 m ρ c = U at h14 h5 h6 ⊢
  after_results_simp
  rw [h14, h5, h6]
  rfl
theorem W3_v5 (c : Dev nD) : W3 m ρ c (Proc.devRef .tc main_v5) = Cert.ReferenceIdeal.ReadP.val_main_v5 (F := F) (edges m c) := by
  have h := W2_v5 m ρ c
  show after hostOps0_2 (W2 m ρ c) (Proc.devRef .tc main_v5) = _
  generalize W2 m ρ c = U at h ⊢
  after_results
  exact h
theorem W3_v6 (c : Dev nD) : W3 m ρ c (Proc.devRef .tc main_v6) = Cert.ReferenceIdeal.ReadP.val_main_v6 (F := F) (edges m c) := by
  have h := W2_v6 m ρ c
  show after hostOps0_2 (W2 m ρ c) (Proc.devRef .tc main_v6) = _
  generalize W2 m ρ c = U at h ⊢
  after_results
  exact h

/-! ### Across the first region (it writes none of them) and the second stretch -/

theorem W4_v5 (c : Dev nD) : W4 m ρ c (Proc.devRef .tc main_v5) = Cert.ReferenceIdeal.ReadP.val_main_v5 (F := F) (edges m c) :=
  (W4_of_ne m ρ c main_v5 (by decide)).trans (W3_v5 m ρ c)
theorem W4_v6 (c : Dev nD) : W4 m ρ c (Proc.devRef .tc main_v6) = Cert.ReferenceIdeal.ReadP.val_main_v6 (F := F) (edges m c) :=
  (W4_of_ne m ρ c main_v6 (by decide)).trans (W3_v6 m ρ c)
theorem W4_v29 (c : Dev nD) : W4 m ρ c (Proc.devRef .tc main_v29) = Cert.ReferenceIdeal.ReadP.val_main_v29 (F := F) (edges m c) :=
  (W4_of_ne m ρ c main_v29 (by decide)).trans (W3_v29 m ρ c)

/-- The second stretch aggregates the first region's result. -/
theorem W5_v43 (c : Dev nD) :
    W5 m ρ c (Proc.devRef .tc main_v43) = Cert.ReferenceIdeal.Stages.propagate16 (F := F) (edges m c) (W4 m ρ c (Proc.devRef .tc main_v30)) := by
  show after hostOps1 (W4 m ρ c) (Proc.devRef .tc main_v43) = _
  after_results_simp
  rw [W4_v5, W4_v6, W4_v29]
  rfl
theorem W5_v5 (c : Dev nD) : W5 m ρ c (Proc.devRef .tc main_v5) = Cert.ReferenceIdeal.ReadP.val_main_v5 (F := F) (edges m c) := by
  show after hostOps1 (W4 m ρ c) (Proc.devRef .tc main_v5) = _
  after_results
  exact W4_v5 m ρ c
theorem W5_v6 (c : Dev nD) : W5 m ρ c (Proc.devRef .tc main_v6) = Cert.ReferenceIdeal.ReadP.val_main_v6 (F := F) (edges m c) := by
  show after hostOps1 (W4 m ρ c) (Proc.devRef .tc main_v6) = _
  after_results
  exact W4_v6 m ρ c
theorem W5_v29 (c : Dev nD) : W5 m ρ c (Proc.devRef .tc main_v29) = Cert.ReferenceIdeal.ReadP.val_main_v29 (F := F) (edges m c) := by
  show after hostOps1 (W4 m ρ c) (Proc.devRef .tc main_v29) = _
  after_results
  exact W4_v29 m ρ c

/-! ### Across the second region and the third stretch -/

theorem W6_v5 (c : Dev nD) : W6 m ρ c (Proc.devRef .tc main_v5) = Cert.ReferenceIdeal.ReadP.val_main_v5 (F := F) (edges m c) :=
  (W6_of_ne m ρ c main_v5 (by decide)).trans (W5_v5 m ρ c)
theorem W6_v6 (c : Dev nD) : W6 m ρ c (Proc.devRef .tc main_v6) = Cert.ReferenceIdeal.ReadP.val_main_v6 (F := F) (edges m c) :=
  (W6_of_ne m ρ c main_v6 (by decide)).trans (W5_v6 m ρ c)
theorem W6_v29 (c : Dev nD) : W6 m ρ c (Proc.devRef .tc main_v29) = Cert.ReferenceIdeal.ReadP.val_main_v29 (F := F) (edges m c) :=
  (W6_of_ne m ρ c main_v29 (by decide)).trans (W5_v29 m ρ c)

/-- The third stretch aggregates the second region's result, with the node lists and weights computed once. -/
theorem W7_v57 (c : Dev nD) :
    W7 m ρ c (Proc.devRef .tc main_v57) = Cert.ReferenceIdeal.Stages.propagate40 (F := F) (edges m c) (W6 m ρ c (Proc.devRef .tc main_v44)) := by
  show after hostOps2 (W6 m ρ c) (Proc.devRef .tc main_v57) = _
  after_results_simp
  rw [W6_v5, W6_v6, W6_v29]
  rfl

end Stretches

/-! ## The kernel program's result -/

variable (m : (ℓ : Loc nD τ sig) → Buf (Elt Ideal) ℓ) (ρ : Dev nD → PrngReg)

/-- The last boundary's contents at the result buffer are the reference's result function of the launch arguments. -/
theorem result_eq (c : Dev nD) :
    W8 m ρ c (Proc.devRef .tc main_v58)
      = Cert.ReferenceIdeal.ReadP.val_main_v91 (F := Ideal) (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  rw [Cert.ReferenceIdeal.Stages.result_eq, Fold.W8_v58, W7_v57, Fold.W6_v44, W5_v43, Fold.W4_v30]

end Cert.KernelIdeal.Bridge

end
-- ==== Proof.RefRunStages.lean ====
/-
  The reference's run, stretch by stretch. Its 134 host operations are cut into fourteen stretches; after each stretch the
  buffers a later stretch reads hold the stage functions of the arguments (the node lists, the degree weights, each
  layer's product, aggregation and activation), each read from what the stretch before left. No operation writes an
  argument. So every weakly fair execution ends with the result buffer at the last stage of the six arguments, which
  are unchanged.
-/
import proofs.«112764_j29540785062187_1_alg».proof.Proof.RefRead
import Idealize.ShloMosaic.Lib.StableHlo.Run

set_option maxRecDepth 16384

noncomputable section

namespace Cert.ReferenceIdeal.RunStages

open Cert.ReferenceIdeal Cert.ReferenceIdeal.Gen Cert.ReferenceIdeal.RunP Cert.ReferenceIdeal.ReadP
open Idealize.ShloMosaic Idealize.ShloMosaic.TcCoe Idealize.SL.Sem Idealize.ShloMosaic.StableHlo

variable {F : FTy → Type} [FloatOps F]

/-- A line of operations run in two parts. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- A value carried along an equation of types and back is itself. -/
theorem cast_cast_cancel {α β : Sort _} (h : α = β) (h' : β = α) (v : α) : cast h' (cast h v) = v := by
  cases h; rfl

/-! ## The stretches -/

/-- Operations 1 … 18 of the reference's @main. -/
abbrev ops1 : List (HloOp τ sig (Elt F)) :=
  [ unary main_arg1 main_v0 ((extractStridedSlice S1x3200000 ![0, 0] · slices_S2x3200000_S1x3200000_0_0) : (⟨S2x3200000, .i32⟩ : BufTy).Contents (Elt F) → (⟨S1x3200000, .i32⟩ : BufTy).Contents (Elt F)),
    reshape main_v0 main_v1 rfl shapeCasts_S1x3200000_S3200000,
    unary main_arg1 main_v2 ((extractStridedSlice S1x3200000 ![1, 0] · slices_S2x3200000_S1x3200000_1_0) : (⟨S2x3200000, .i32⟩ : BufTy).Contents (Elt F) → (⟨S1x3200000, .i32⟩ : BufTy).Contents (Elt F)),
    reshape main_v2 main_v3 rfl shapeCasts_S1x3200000_S3200000,
    nullary main_v4 (iotaInDim S100000 32 0),
    binary main_v1 main_v4 main_v5 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    binary main_v3 main_v4 main_v6 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    nullary main_cst (constant S_ .f32 0x3F800000#32),
    unary main_cst main_v7 (broadcastInDim S3300000 ![] bcast_S_S3300000 : (⟨S_, .f32⟩ : BufTy).Contents (Elt F) → (⟨S3300000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S3300000x1 ![0] bcast_S3300000_S3300000x1_0 : (⟨S3300000, .i32⟩ : BufTy).Contents (Elt F) → (⟨S3300000x1, .i32⟩ : BufTy).Contents (Elt F)),
    ternary main_v8 main_v9 main_v7 main_v10 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf (F := F) .ogt : (⟨S100000, .f32⟩ : BufTy).Contents (Elt F) → (⟨S100000, .f32⟩ : BufTy).Contents (Elt F) → (⟨S100000, .i1⟩ : BufTy).Contents (Elt F)),
    unary main_v10 main_v13 (Host.rsqrt : (⟨S100000, .f32⟩ : BufTy).Contents (Elt F) → (⟨S100000, .f32⟩ : BufTy).Contents (Elt F)),
    nullary main_cst_2 (constant S_ .f32 0x00000000#32) ]

/-- Operations 19 … 21 of the reference's @main. -/
abbrev ops2 : List (HloOp τ sig (Elt F)) :=
  [ TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v12) (TRef.of (T := ⟨S100000, .f32⟩) main_v13) (TRef.of (T := ⟨S100000, .f32⟩) main_call0_v1) (TRef.of (T := ⟨S100000, .f32⟩) main_v14) select ]

/-- Operations 22 … 40 of the reference's @main. -/
abbrev ops3 : List (HloOp τ sig (Elt F)) :=
  [ nullary main_c (constantI S_ 32 0#32),
    unary main_c main_v15 (broadcastInDim S3300000 ![] bcast_S_S3300000 : (⟨S_, .i32⟩ : BufTy).Contents (Elt F) → (⟨S3300000, .i32⟩ : BufTy).Contents (Elt F)),
    binary main_v5 main_v15 main_v16 (cmpi .slt : (⟨S3300000, .i32⟩ : BufTy).Contents (Elt F) → (⟨S3300000, .i32⟩ : BufTy).Contents (Elt F) → (⟨S3300000, .i1⟩ : BufTy).Contents (Elt F)),
    nullary main_c_3 (constantI S_ 32 100000#32),
    unary main_c_3 main_v17 (broadcastInDim S3300000 ![] bcast_S_S3300000 : (⟨S_, .i32⟩ : BufTy).Contents (Elt F) → (⟨S3300000, .i32⟩ : BufTy).Contents (Elt F)),
    binary main_v5 main_v17 main_v18 (addi : (⟨S3300000, .i32⟩ : BufTy).Contents (Elt F) → (⟨S3300000, .i32⟩ : BufTy).Contents (Elt F) → (⟨S3300000, .i32⟩ : BufTy).Contents (Elt F)),
    ternary main_v16 main_v18 main_v5 main_v19 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v19 main_v20 (broadcastInDim S3300000x1 ![0] bcast_S3300000_S3300000x1_0 : (⟨S3300000, .i32⟩ : BufTy).Contents (Elt F) → (⟨S3300000x1, .i32⟩ : BufTy).Contents (Elt F)),
    binary main_v14 main_v20 main_v21 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    nullary main_c_4 (constantI S_ 32 0#32),
    unary main_c_4 main_v22 (broadcastInDim S3300000 ![] bcast_S_S3300000 : (⟨S_, .i32⟩ : BufTy).Contents (Elt F) → (⟨S3300000, .i32⟩ : BufTy).Contents (Elt F)),
    binary main_v6 main_v22 main_v23 (cmpi .slt : (⟨S3300000, .i32⟩ : BufTy).Contents (Elt F) → (⟨S3300000, .i32⟩ : BufTy).Contents (Elt F) → (⟨S3300000, .i1⟩ : BufTy).Contents (Elt F)),
    nullary main_c_5 (constantI S_ 32 100000#32),
    unary main_c_5 main_v24 (broadcastInDim S3300000 ![] bcast_S_S3300000 : (⟨S_, .i32⟩ : BufTy).Contents (Elt F) → (⟨S3300000, .i32⟩ : BufTy).Contents (Elt F)),
    binary main_v6 main_v24 main_v25 (addi : (⟨S3300000, .i32⟩ : BufTy).Contents (Elt F) → (⟨S3300000, .i32⟩ : BufTy).Contents (Elt F) → (⟨S3300000, .i32⟩ : BufTy).Contents (Elt F)),
    ternary main_v23 main_v25 main_v6 main_v26 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v26 main_v27 (broadcastInDim S3300000x1 ![0] bcast_S3300000_S3300000x1_0 : (⟨S3300000, .i32⟩ : BufTy).Contents (Elt F) → (⟨S3300000x1, .i32⟩ : BufTy).Contents (Elt F)),
    binary main_v14 main_v27 main_v28 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v21 main_v28 main_v29 (mulf : (⟨S3300000, .f32⟩ : BufTy).Contents (Elt F) → (⟨S3300000, .f32⟩ : BufTy).Contents (Elt F) → (⟨S3300000, .f32⟩ : BufTy).Contents (Elt F)) ]

/-- Operations 41 … 57 of the reference's @main. -/
abbrev ops4 : List (HloOp τ sig (Elt F)) :=
  [ binary main_arg0 main_arg2 main_v30 ((fun l r => Host.dotGeneral dot_S100000x512_S512x16_S100000x16_1_0_0_1_n_n none l r) : (⟨S100000x512, .f32⟩ : BufTy).Contents (Elt F) → (⟨S512x16, .f32⟩ : BufTy).Contents (Elt F) → (⟨S100000x16, .f32⟩ : BufTy).Contents (Elt F)),
    nullary main_c_6 (constantI S_ 32 0#32),
    unary main_c_6 main_v31 (broadcastInDim S3300000 ![] bcast_S_S3300000 : (⟨S_, .i32⟩ : BufTy).Contents (Elt F) → (⟨S3300000, .i32⟩ : BufTy).Contents (Elt F)),
    binary main_v5 main_v31 main_v32 (cmpi .slt : (⟨S3300000, .i32⟩ : BufTy).Contents (Elt F) → (⟨S3300000, .i32⟩ : BufTy).Contents (Elt F) → (⟨S3300000, .i1⟩ : BufTy).Contents (Elt F)),
    nullary main_c_7 (constantI S_ 32 100000#32),
    unary main_c_7 main_v33 (broadcastInDim S3300000 ![] bcast_S_S3300000 : (⟨S_, .i32⟩ : BufTy).Contents (Elt F) → (⟨S3300000, .i32⟩ : BufTy).Contents (Elt F)),
    binary main_v5 main_v33 main_v34 (addi : (⟨S3300000, .i32⟩ : BufTy).Contents (Elt F) → (⟨S3300000, .i32⟩ : BufTy).Contents (Elt F) → (⟨S3300000, .i32⟩ : BufTy).Contents (Elt F)),
    ternary main_v32 main_v34 main_v5 main_v35 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v35 main_v36 (broadcastInDim S3300000x1 ![0] bcast_S3300000_S3300000x1_0 : (⟨S3300000, .i32⟩ : BufTy).Contents (Elt F) → (⟨S3300000x1, .i32⟩ : BufTy).Contents (Elt F)),
    binary main_v30 main_v36 main_v37 ((fun x i => Host.gather gather_S100000x16_S3300000x1_S3300000x16_1_0_n_n_0_1_116 x i) : (⟨S100000x16, .f32⟩ : BufTy).Contents (Elt F) → (⟨S3300000x1, .i32⟩ : BufTy).Contents (Elt F) → (⟨S3300000x16, .f32⟩ : BufTy).Contents (Elt F)),
    unary main_v29 main_v38 (broadcastInDim S3300000x1 ![0] bcast_S3300000_S3300000x1_0 : (⟨S3300000, .f32⟩ : BufTy).Contents (Elt F) → (⟨S3300000x1, .f32⟩ : BufTy).Contents (Elt F)),
    unary main_v38 main_v39 (broadcastInDim S3300000x16 ![0, 1] bcast_S3300000x1_S3300000x16_0_1 : (⟨S3300000x1, .f32⟩ : BufTy).Contents (Elt F) → (⟨S3300000x16, .f32⟩ : BufTy).Contents (Elt F)),
    binary main_v37 main_v39 main_v40 (mulf : (⟨S3300000x16, .f32⟩ : BufTy).Contents (Elt F) → (⟨S3300000x16, .f32⟩ : BufTy).Contents (Elt F) → (⟨S3300000x16, .f32⟩ : BufTy).Contents (Elt F)),
    nullary main_cst_8 (constant S_ .f32 0x00000000#32),
    unary main_cst_8 main_v41 (broadcastInDim S100000x16 ![] bcast_S_S100000x16 : (⟨S_, .f32⟩ : BufTy).Contents (Elt F) → (⟨S100000x16, .f32⟩ : BufTy).Contents (Elt F)),
    unary main_v6 main_v42 (broadcastInDim S3300000x1 ![0] bcast_S3300000_S3300000x1_0 : (⟨S3300000, .i32⟩ : BufTy).Contents (Elt F) → (⟨S3300000x1, .i32⟩ : BufTy).Contents (Elt F)),
    ternary main_v41 main_v42 main_v40 main_v43 ((fun x i u => Host.scatterAdd scatter_S100000x16_S3300000x1_S3300000x16_1_0_0_1 x i u) : (⟨S100000x16, .f32⟩ : BufTy).Contents (Elt F) → (⟨S3300000x1, .i32⟩ : BufTy).Contents (Elt F) → (⟨S3300000x16, .f32⟩ : BufTy).Contents (Elt F) → (⟨S100000x16, .f32⟩ : BufTy).Contents (Elt F)) ]

/-- Operations 58 … 64 of the reference's @main. -/
abbrev ops5 : List (HloOp τ sig (Elt F)) :=
  [ unary main_arg3 main_v44 (broadcastInDim S1x16 ![1] bcast_S16_S1x16_1 : (⟨S16, .f32⟩ : BufTy).Contents (Elt F) → (⟨S1x16, .f32⟩ : BufTy).Contents (Elt F)),
    unary main_v44 main_v45 (broadcastInDim S100000x16 ![0, 1] bcast_S1x16_S100000x16_0_1 : (⟨S1x16, .f32⟩ : BufTy).Contents (Elt F) → (⟨S100000x16, .f32⟩ : BufTy).Contents (Elt F)),
    binary main_v43 main_v45 main_v46 (addf : (⟨S100000x16, .f32⟩ : BufTy).Contents (Elt F) → (⟨S100000x16, .f32⟩ : BufTy).Contents (Elt F) → (⟨S100000x16, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x16, .f32⟩) main_call1_v0) (broadcastInDim S100000x16 ![] bcast_S_S100000x16),
    TRef.binary (TRef.of (T := ⟨S100000x16, .f32⟩) main_v46) (TRef.of (T := ⟨S100000x16, .f32⟩) main_call1_v0) (TRef.of (T := ⟨S100000x16, .f32⟩) main_v47) maximumf,
    nullary main_v48 (iotaInDim S100000 32 0) ]

/-- Operations 65 … 77 of the reference's @main. -/
abbrev ops6 : List (HloOp τ sig (Elt F)) :=
  [ binary main_v1 main_v48 main_v49 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    binary main_v3 main_v48 main_v50 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    nullary main_cst_9 (constant S_ .f32 0x3F800000#32),
    unary main_cst_9 main_v51 (broadcastInDim S3300000 ![] bcast_S_S3300000 : (⟨S_, .f32⟩ : BufTy).Contents (Elt F) → (⟨S3300000, .f32⟩ : BufTy).Contents (Elt F)),
    nullary main_cst_10 (constant S_ .f32 0x00000000#32),
    unary main_cst_10 main_v52 (broadcastInDim S100000 ![] bcast_S_S100000 : (⟨S_, .f32⟩ : BufTy).Contents (Elt F) → (⟨S100000, .f32⟩ : BufTy).Contents (Elt F)),
    unary main_v50 main_v53 (broadcastInDim S3300000x1 ![0] bcast_S3300000_S3300000x1_0 : (⟨S3300000, .i32⟩ : BufTy).Contents (Elt F) → (⟨S3300000x1, .i32⟩ : BufTy).Contents (Elt F)),
    ternary main_v52 main_v53 main_v51 main_v54 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    nullary main_cst_11 (constant S_ .f32 0x00000000#32),
    unary main_cst_11 main_v55 (broadcastInDim S100000 ![] bcast_S_S100000 : (⟨S_, .f32⟩ : BufTy).Contents (Elt F) → (⟨S100000, .f32⟩ : BufTy).Contents (Elt F)),
    binary main_v54 main_v55 main_v56 (cmpf (F := F) .ogt : (⟨S100000, .f32⟩ : BufTy).Contents (Elt F) → (⟨S100000, .f32⟩ : BufTy).Contents (Elt F) → (⟨S100000, .i1⟩ : BufTy).Contents (Elt F)),
    unary main_v54 main_v57 (Host.rsqrt : (⟨S100000, .f32⟩ : BufTy).Contents (Elt F) → (⟨S100000, .f32⟩ : BufTy).Contents (Elt F)),
    nullary main_cst_12 (constant S_ .f32 0x00000000#32) ]

/-- Operations 78 … 80 of the reference's @main. -/
abbrev ops7 : List (HloOp τ sig (Elt F)) :=
  [ TRef.unary (TRef.of (T := ⟨S_, .f32⟩) main_cst_12) (TRef.of (T := ⟨S_, .f32⟩) main_call2_v0) id,
    TRef.unary (TRef.of (T := ⟨S_, .f32⟩) main_call2_v0) (TRef.of (T := ⟨S100000, .f32⟩) main_call2_v1) (broadcastInDim S100000 ![] bcast_S_S100000),
    TRef.ternary (TRef.of (T := ⟨S100000, .i1⟩) main_v56) (TRef.of (T := ⟨S100000, .f32⟩) main_v57) (TRef.of (T := ⟨S100000, .f32⟩) main_call2_v1) (TRef.of (T := ⟨S100000, .f32⟩) main_v58) select ]

/-- Operations 81 … 99 of the reference's @main. -/
abbrev ops8 : List (HloOp τ sig (Elt F)) :=
  [ nullary main_c_13 (constantI S_ 32 0#32),
    unary main_c_13 main_v59 (broadcastInDim S3300000 ![] bcast_S_S3300000 : (⟨S_, .i32⟩ : BufTy).Contents (Elt F) → (⟨S3300000, .i32⟩ : BufTy).Contents (Elt F)),
    binary main_v49 main_v59 main_v60 (cmpi .slt : (⟨S3300000, .i32⟩ : BufTy).Contents (Elt F) → (⟨S3300000, .i32⟩ : BufTy).Contents (Elt F) → (⟨S3300000, .i1⟩ : BufTy).Contents (Elt F)),
    nullary main_c_14 (constantI S_ 32 100000#32),
    unary main_c_14 main_v61 (broadcastInDim S3300000 ![] bcast_S_S3300000 : (⟨S_, .i32⟩ : BufTy).Contents (Elt F) → (⟨S3300000, .i32⟩ : BufTy).Contents (Elt F)),
    binary main_v49 main_v61 main_v62 (addi : (⟨S3300000, .i32⟩ : BufTy).Contents (Elt F) → (⟨S3300000, .i32⟩ : BufTy).Contents (Elt F) → (⟨S3300000, .i32⟩ : BufTy).Contents (Elt F)),
    ternary main_v60 main_v62 main_v49 main_v63 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v63 main_v64 (broadcastInDim S3300000x1 ![0] bcast_S3300000_S3300000x1_0 : (⟨S3300000, .i32⟩ : BufTy).Contents (Elt F) → (⟨S3300000x1, .i32⟩ : BufTy).Contents (Elt F)),
    binary main_v58 main_v64 main_v65 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    nullary main_c_15 (constantI S_ 32 0#32),
    unary main_c_15 main_v66 (broadcastInDim S3300000 ![] bcast_S_S3300000 : (⟨S_, .i32⟩ : BufTy).Contents (Elt F) → (⟨S3300000, .i32⟩ : BufTy).Contents (Elt F)),
    binary main_v50 main_v66 main_v67 (cmpi .slt : (⟨S3300000, .i32⟩ : BufTy).Contents (Elt F) → (⟨S3300000, .i32⟩ : BufTy).Contents (Elt F) → (⟨S3300000, .i1⟩ : BufTy).Contents (Elt F)),
    nullary main_c_16 (constantI S_ 32 100000#32),
    unary main_c_16 main_v68 (broadcastInDim S3300000 ![] bcast_S_S3300000 : (⟨S_, .i32⟩ : BufTy).Contents (Elt F) → (⟨S3300000, .i32⟩ : BufTy).Contents (Elt F)),
    binary main_v50 main_v68 main_v69 (addi : (⟨S3300000, .i32⟩ : BufTy).Contents (Elt F) → (⟨S3300000, .i32⟩ : BufTy).Contents (Elt F) → (⟨S3300000, .i32⟩ : BufTy).Contents (Elt F)),
    ternary main_v67 main_v69 main_v50 main_v70 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v70 main_v71 (broadcastInDim S3300000x1 ![0] bcast_S3300000_S3300000x1_0 : (⟨S3300000, .i32⟩ : BufTy).Contents (Elt F) → (⟨S3300000x1, .i32⟩ : BufTy).Contents (Elt F)),
    binary main_v58 main_v71 main_v72 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v65 main_v72 main_v73 (mulf : (⟨S3300000, .f32⟩ : BufTy).Contents (Elt F) → (⟨S3300000, .f32⟩ : BufTy).Contents (Elt F) → (⟨S3300000, .f32⟩ : BufTy).Contents (Elt F)) ]

/-- Operations 100 … 116 of the reference's @main. -/
abbrev ops9 : List (HloOp τ sig (Elt F)) :=
  [ binary main_v47 main_arg4 main_v74 ((fun l r => Host.dotGeneral dot_S100000x16_S16x40_S100000x40_1_0_0_1_n_n none l r) : (⟨S100000x16, .f32⟩ : BufTy).Contents (Elt F) → (⟨S16x40, .f32⟩ : BufTy).Contents (Elt F) → (⟨S100000x40, .f32⟩ : BufTy).Contents (Elt F)),
    nullary main_c_17 (constantI S_ 32 0#32),
    unary main_c_17 main_v75 (broadcastInDim S3300000 ![] bcast_S_S3300000 : (⟨S_, .i32⟩ : BufTy).Contents (Elt F) → (⟨S3300000, .i32⟩ : BufTy).Contents (Elt F)),
    binary main_v49 main_v75 main_v76 (cmpi .slt : (⟨S3300000, .i32⟩ : BufTy).Contents (Elt F) → (⟨S3300000, .i32⟩ : BufTy).Contents (Elt F) → (⟨S3300000, .i1⟩ : BufTy).Contents (Elt F)),
    nullary main_c_18 (constantI S_ 32 100000#32),
    unary main_c_18 main_v77 (broadcastInDim S3300000 ![] bcast_S_S3300000 : (⟨S_, .i32⟩ : BufTy).Contents (Elt F) → (⟨S3300000, .i32⟩ : BufTy).Contents (Elt F)),
    binary main_v49 main_v77 main_v78 (addi : (⟨S3300000, .i32⟩ : BufTy).Contents (Elt F) → (⟨S3300000, .i32⟩ : BufTy).Contents (Elt F) → (⟨S3300000, .i32⟩ : BufTy).Contents (Elt F)),
    ternary main_v76 main_v78 main_v49 main_v79 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v79 main_v80 (broadcastInDim S3300000x1 ![0] bcast_S3300000_S3300000x1_0 : (⟨S3300000, .i32⟩ : BufTy).Contents (Elt F) → (⟨S3300000x1, .i32⟩ : BufTy).Contents (Elt F)),
    binary main_v74 main_v80 main_v81 ((fun x i => Host.gather gather_S100000x40_S3300000x1_S3300000x40_1_0_n_n_0_1_140 x i) : (⟨S100000x40, .f32⟩ : BufTy).Contents (Elt F) → (⟨S3300000x1, .i32⟩ : BufTy).Contents (Elt F) → (⟨S3300000x40, .f32⟩ : BufTy).Contents (Elt F)),
    unary main_v73 main_v82 (broadcastInDim S3300000x1 ![0] bcast_S3300000_S3300000x1_0 : (⟨S3300000, .f32⟩ : BufTy).Contents (Elt F) → (⟨S3300000x1, .f32⟩ : BufTy).Contents (Elt F)),
    unary main_v82 main_v83 (broadcastInDim S3300000x40 ![0, 1] bcast_S3300000x1_S3300000x40_0_1 : (⟨S3300000x1, .f32⟩ : BufTy).Contents (Elt F) → (⟨S3300000x40, .f32⟩ : BufTy).Contents (Elt F)),
    binary main_v81 main_v83 main_v84 (mulf : (⟨S3300000x40, .f32⟩ : BufTy).Contents (Elt F) → (⟨S3300000x40, .f32⟩ : BufTy).Contents (Elt F) → (⟨S3300000x40, .f32⟩ : BufTy).Contents (Elt F)),
    nullary main_cst_19 (constant S_ .f32 0x00000000#32),
    unary main_cst_19 main_v85 (broadcastInDim S100000x40 ![] bcast_S_S100000x40 : (⟨S_, .f32⟩ : BufTy).Contents (Elt F) → (⟨S100000x40, .f32⟩ : BufTy).Contents (Elt F)),
    unary main_v50 main_v86 (broadcastInDim S3300000x1 ![0] bcast_S3300000_S3300000x1_0 : (⟨S3300000, .i32⟩ : BufTy).Contents (Elt F) → (⟨S3300000x1, .i32⟩ : BufTy).Contents (Elt F)),
    ternary main_v85 main_v86 main_v84 main_v87 ((fun x i u => Host.scatterAdd scatter_S100000x40_S3300000x1_S3300000x40_1_0_0_1 x i u) : (⟨S100000x40, .f32⟩ : BufTy).Contents (Elt F) → (⟨S3300000x1, .i32⟩ : BufTy).Contents (Elt F) → (⟨S3300000x40, .f32⟩ : BufTy).Contents (Elt F) → (⟨S100000x40, .f32⟩ : BufTy).Contents (Elt F)) ]

/-- Operations 117 … 119 of the reference's @main. -/
abbrev ops10 : List (HloOp τ sig (Elt F)) :=
  [ unary main_arg5 main_v88 (broadcastInDim S1x40 ![1] bcast_S40_S1x40_1 : (⟨S40, .f32⟩ : BufTy).Contents (Elt F) → (⟨S1x40, .f32⟩ : BufTy).Contents (Elt F)),
    unary main_v88 main_v89 (broadcastInDim S100000x40 ![0, 1] bcast_S1x40_S100000x40_0_1 : (⟨S1x40, .f32⟩ : BufTy).Contents (Elt F) → (⟨S100000x40, .f32⟩ : BufTy).Contents (Elt F)),
    binary main_v87 main_v89 main_v90 (addf : (⟨S100000x40, .f32⟩ : BufTy).Contents (Elt F) → (⟨S100000x40, .f32⟩ : BufTy).Contents (Elt F) → (⟨S100000x40, .f32⟩ : BufTy).Contents (Elt F)) ]

/-- Operations 120 … 124 of the reference's @main. -/
abbrev ops11 : List (HloOp τ sig (Elt F)) :=
  [ TRef.nullary (TRef.of (T := ⟨S_, .f32⟩) main_call3_cst) (constant S_ .f32 0xFF800000#32),
    TRef.binary (TRef.of (T := ⟨S100000x40, .f32⟩) main_v90) (TRef.of (T := ⟨S_, .f32⟩) main_call3_cst) (TRef.of (T := ⟨S100000, .f32⟩) main_call3_v0) (fun x v => Host.reduce FloatOps.maximumf x v reducesTo_S100000x40_S100000_d1 h_S_),
    TRef.nullary (TRef.of (T := ⟨S_, .f32⟩) main_call3_cst_0) (constant S_ .f32 0xFF800000#32),
    TRef.unary (TRef.of (T := ⟨S_, .f32⟩) main_call3_cst_0) (TRef.of (T := ⟨S100000, .f32⟩) main_call3_v1) (broadcastInDim S100000 ![] bcast_S_S100000),
    TRef.binary (TRef.of (T := ⟨S100000, .f32⟩) main_call3_v1) (TRef.of (T := ⟨S100000, .f32⟩) main_call3_v0) (TRef.of (T := ⟨S100000, .f32⟩) main_call3_v2) maximumf ]

/-- Operations 125 … 127 of the reference's @main. -/
abbrev ops12 : List (HloOp τ sig (Elt F)) :=
  [ TRef.unary (TRef.of (T := ⟨S100000, .f32⟩) main_call3_v2) (TRef.of (T := ⟨S100000x1, .f32⟩) main_call3_v3) (broadcastInDim S100000x1 ![0] bcast_S100000_S100000x1_0),
    TRef.unary (TRef.of (T := ⟨S100000x1, .f32⟩) main_call3_v3) (TRef.of (T := ⟨S100000x40, .f32⟩) main_call3_v4) (broadcastInDim S100000x40 ![0, 1] bcast_S100000x1_S100000x40_0_1),
    TRef.binary (TRef.of (T := ⟨S100000x40, .f32⟩) main_v90) (TRef.of (T := ⟨S100000x40, .f32⟩) main_call3_v4) (TRef.of (T := ⟨S100000x40, .f32⟩) main_call3_v5) subf ]

/-- Operations 128 … 131 of the reference's @main. -/
abbrev ops13 : List (HloOp τ sig (Elt F)) :=
  [ TRef.unary (TRef.of (T := ⟨S100000x40, .f32⟩) main_call3_v5) (TRef.of (T := ⟨S100000x40, .f32⟩) main_call3_v6) Host.exp,
    TRef.nullary (TRef.of (T := ⟨S_, .f32⟩) main_call3_cst_1) (constant S_ .f32 0x00000000#32),
    TRef.binary (TRef.of (T := ⟨S100000x40, .f32⟩) main_call3_v6) (TRef.of (T := ⟨S_, .f32⟩) main_call3_cst_1) (TRef.of (T := ⟨S100000, .f32⟩) main_call3_v7) (fun x v => Host.reduceAdd x v reducesTo_S100000x40_S100000_d1 h_S_),
    TRef.unary (TRef.of (T := ⟨S100000, .f32⟩) main_call3_v7) (TRef.of (T := ⟨S100000x1, .f32⟩) main_call3_v8) (broadcastInDim S100000x1 ![0] bcast_S100000_S100000x1_0) ]

/-- Operations 132 … 134 of the reference's @main. -/
abbrev ops14 : List (HloOp τ sig (Elt F)) :=
  [ TRef.unary (TRef.of (T := ⟨S100000x1, .f32⟩) main_call3_v8) (TRef.of (T := ⟨S100000x1, .f32⟩) main_call3_v9) Host.log,
    TRef.unary (TRef.of (T := ⟨S100000x1, .f32⟩) main_call3_v9) (TRef.of (T := ⟨S100000x40, .f32⟩) main_call3_v10) (broadcastInDim S100000x40 ![0, 1] bcast_S100000x1_S100000x40_0_1),
    TRef.binary (TRef.of (T := ⟨S100000x40, .f32⟩) main_call3_v5) (TRef.of (T := ⟨S100000x40, .f32⟩) main_call3_v10) (TRef.of (T := ⟨S100000x40, .f32⟩) main_v91) subf ]

set_option maxRecDepth 65536 in
/-- The stretches, in order, are the whole list. -/
theorem ops_split : (ops : List (HloOp τ sig (Elt F))) = ops1 ++ (ops2 ++ (ops3 ++ (ops4 ++ (ops5 ++ (ops6 ++ (ops7 ++ (ops8 ++ (ops9 ++ (ops10 ++ (ops11 ++ (ops12 ++ (ops13 ++ (ops14))))))))))))) := rfl

variable (m : (ℓ : Loc nD τ sig) → Buf (Elt F) ℓ)

/-- The six arguments as launched. -/
abbrev a0 (c : Dev nD) := m ((c.tc : Thread nD τ).loc main_arg0)
abbrev a1 (c : Dev nD) := m ((c.tc : Thread nD τ).loc main_arg1)
abbrev a2 (c : Dev nD) := m ((c.tc : Thread nD τ).loc main_arg2)
abbrev a3 (c : Dev nD) := m ((c.tc : Thread nD τ).loc main_arg3)
abbrev a4 (c : Dev nD) := m ((c.tc : Thread nD τ).loc main_arg4)
abbrev a5 (c : Dev nD) := m ((c.tc : Thread nD τ).loc main_arg5)

/-- The buffers' contents after the first 1 stretch. -/
def R1 (c : Dev nD) : Valuation τ sig (Elt F) := after ops1 (launchContents m c)
/-- The buffers' contents after the first 2 stretches. -/
def R2 (c : Dev nD) : Valuation τ sig (Elt F) := after ops2 (R1 m c)
/-- The buffers' contents after the first 3 stretches. -/
def R3 (c : Dev nD) : Valuation τ sig (Elt F) := after ops3 (R2 m c)
/-- The buffers' contents after the first 4 stretches. -/
def R4 (c : Dev nD) : Valuation τ sig (Elt F) := after ops4 (R3 m c)
/-- The buffers' contents after the first 5 stretches. -/
def R5 (c : Dev nD) : Valuation τ sig (Elt F) := after ops5 (R4 m c)
/-- The buffers' contents after the first 6 stretches. -/
def R6 (c : Dev nD) : Valuation τ sig (Elt F) := after ops6 (R5 m c)
/-- The buffers' contents after the first 7 stretches. -/
def R7 (c : Dev nD) : Valuation τ sig (Elt F) := after ops7 (R6 m c)
/-- The buffers' contents after the first 8 stretches. -/
def R8 (c : Dev nD) : Valuation τ sig (Elt F) := after ops8 (R7 m c)
/-- The buffers' contents after the first 9 stretches. -/
def R9 (c : Dev nD) : Valuation τ sig (Elt F) := after ops9 (R8 m c)
/-- The buffers' contents after the first 10 stretches. -/
def R10 (c : Dev nD) : Valuation τ sig (Elt F) := after ops10 (R9 m c)
/-- The buffers' contents after the first 11 stretches. -/
def R11 (c : Dev nD) : Valuation τ sig (Elt F) := after ops11 (R10 m c)
/-- The buffers' contents after the first 12 stretches. -/
def R12 (c : Dev nD) : Valuation τ sig (Elt F) := after ops12 (R11 m c)
/-- The buffers' contents after the first 13 stretches. -/
def R13 (c : Dev nD) : Valuation τ sig (Elt F) := after ops13 (R12 m c)
/-- The buffers' contents after the first 14 stretches. -/
def R14 (c : Dev nD) : Valuation τ sig (Elt F) := after ops14 (R13 m c)

/-! ### Stretch 1: the node lists, the degrees, their comparison and inverse square root -/
theorem R1_v1 (c : Dev nD) : R1 m c (Proc.devRef .tc main_v1) = val_main_v1 (F := F) (a1 m c) := by
  show after ops1 (launchContents m c) (Proc.devRef .tc main_v1) = _
  after_results
  all_goals rfl
theorem R1_v3 (c : Dev nD) : R1 m c (Proc.devRef .tc main_v3) = val_main_v3 (F := F) (a1 m c) := by
  show after ops1 (launchContents m c) (Proc.devRef .tc main_v3) = _
  after_results
  all_goals rfl
theorem R1_v5 (c : Dev nD) : R1 m c (Proc.devRef .tc main_v5) = val_main_v5 (F := F) (a1 m c) := by
  show after ops1 (launchContents m c) (Proc.devRef .tc main_v5) = _
  after_results
  all_goals rfl
theorem R1_v6 (c : Dev nD) : R1 m c (Proc.devRef .tc main_v6) = val_main_v6 (F := F) (a1 m c) := by
  show after ops1 (launchContents m c) (Proc.devRef .tc main_v6) = _
  after_results
  all_goals rfl
theorem R1_v12 (c : Dev nD) : R1 m c (Proc.devRef .tc main_v12) = val_main_v12 (F := F) (a1 m c) := by
  show after ops1 (launchContents m c) (Proc.devRef .tc main_v12) = _
  after_results
  all_goals rfl
theorem R1_v13 (c : Dev nD) : R1 m c (Proc.devRef .tc main_v13) = val_main_v13 (F := F) (a1 m c) := by
  show after ops1 (launchContents m c) (Proc.devRef .tc main_v13) = _
  after_results
  all_goals rfl
theorem R1_cst_2 (c : Dev nD) : R1 m c (Proc.devRef .tc main_cst_2) = val_main_cst_2 (F := F) := by
  show after ops1 (launchContents m c) (Proc.devRef .tc main_cst_2) = _
  after_results
  all_goals rfl
/-! ### Stretch 2: the select of the inverse square roots -/
theorem R2_v14 (c : Dev nD) : R2 m c (Proc.devRef .tc main_v14) = val_main_v14 (F := F) (a1 m c) := by
  show after ops2 (R1 m c) (Proc.devRef .tc main_v14) = _
  after_results
  rw [R1_v12, R1_v13, R1_cst_2]
  rfl
theorem R2_v1 (c : Dev nD) : R2 m c (Proc.devRef .tc main_v1) = val_main_v1 (F := F) (a1 m c) := by
  show after ops2 (R1 m c) (Proc.devRef .tc main_v1) = _
  after_results
  exact R1_v1 m c
theorem R2_v3 (c : Dev nD) : R2 m c (Proc.devRef .tc main_v3) = val_main_v3 (F := F) (a1 m c) := by
  show after ops2 (R1 m c) (Proc.devRef .tc main_v3) = _
  after_results
  exact R1_v3 m c
theorem R2_v5 (c : Dev nD) : R2 m c (Proc.devRef .tc main_v5) = val_main_v5 (F := F) (a1 m c) := by
  show after ops2 (R1 m c) (Proc.devRef .tc main_v5) = _
  after_results
  exact R1_v5 m c
theorem R2_v6 (c : Dev nD) : R2 m c (Proc.devRef .tc main_v6) = val_main_v6 (F := F) (a1 m c) := by
  show after ops2 (R1 m c) (Proc.devRef .tc main_v6) = _
  after_results
  exact R1_v6 m c
/-! ### Stretch 3: the edge weights -/
theorem R3_v29 (c : Dev nD) : R3 m c (Proc.devRef .tc main_v29) = val_main_v29 (F := F) (a1 m c) := by
  show after ops3 (R2 m c) (Proc.devRef .tc main_v29) = _
  after_results_simp
  rw [R2_v14, R2_v5, R2_v6]
  rfl
theorem R3_v1 (c : Dev nD) : R3 m c (Proc.devRef .tc main_v1) = val_main_v1 (F := F) (a1 m c) := by
  show after ops3 (R2 m c) (Proc.devRef .tc main_v1) = _
  after_results
  exact R2_v1 m c
theorem R3_v3 (c : Dev nD) : R3 m c (Proc.devRef .tc main_v3) = val_main_v3 (F := F) (a1 m c) := by
  show after ops3 (R2 m c) (Proc.devRef .tc main_v3) = _
  after_results
  exact R2_v3 m c
theorem R3_v5 (c : Dev nD) : R3 m c (Proc.devRef .tc main_v5) = val_main_v5 (F := F) (a1 m c) := by
  show after ops3 (R2 m c) (Proc.devRef .tc main_v5) = _
  after_results
  exact R2_v5 m c
theorem R3_v6 (c : Dev nD) : R3 m c (Proc.devRef .tc main_v6) = val_main_v6 (F := F) (a1 m c) := by
  show after ops3 (R2 m c) (Proc.devRef .tc main_v6) = _
  after_results
  exact R2_v6 m c
theorem R3_arg0 (c : Dev nD) : R3 m c (Proc.devRef .tc main_arg0) = a0 m c := by
  show after ops3 (after ops2 (after ops1 (launchContents m c))) (Proc.devRef .tc main_arg0) = _
  after_results
  all_goals rfl
theorem R3_arg2 (c : Dev nD) : R3 m c (Proc.devRef .tc main_arg2) = a2 m c := by
  show after ops3 (after ops2 (after ops1 (launchContents m c))) (Proc.devRef .tc main_arg2) = _
  after_results
  all_goals rfl
/-! ### Stretch 4: the first product and its aggregation -/
theorem R4_v43 (c : Dev nD) : R4 m c (Proc.devRef .tc main_v43) = val_main_v43 (F := F) (a0 m c) (a1 m c) (a2 m c) := by
  show after ops4 (R3 m c) (Proc.devRef .tc main_v43) = _
  after_results_simp
  rw [R3_arg0, R3_arg2, R3_v5, R3_v29, R3_v6]
  rfl
theorem R4_v1 (c : Dev nD) : R4 m c (Proc.devRef .tc main_v1) = val_main_v1 (F := F) (a1 m c) := by
  show after ops4 (R3 m c) (Proc.devRef .tc main_v1) = _
  after_results
  exact R3_v1 m c
theorem R4_v3 (c : Dev nD) : R4 m c (Proc.devRef .tc main_v3) = val_main_v3 (F := F) (a1 m c) := by
  show after ops4 (R3 m c) (Proc.devRef .tc main_v3) = _
  after_results
  exact R3_v3 m c
theorem R4_arg3 (c : Dev nD) : R4 m c (Proc.devRef .tc main_arg3) = a3 m c := by
  show after ops4 (after ops3 (after ops2 (after ops1 (launchContents m c)))) (Proc.devRef .tc main_arg3) = _
  after_results
  all_goals rfl
/-! ### Stretch 5: the hidden activation; the node numbers again -/
theorem R5_v47 (c : Dev nD) : R5 m c (Proc.devRef .tc main_v47) = val_main_v47 (F := F) (a0 m c) (a1 m c) (a2 m c) (a3 m c) := by
  show after ops5 (R4 m c) (Proc.devRef .tc main_v47) = _
  after_results
  rw [R4_v43, R4_arg3]
  rfl
theorem R5_v48 (c : Dev nD) : R5 m c (Proc.devRef .tc main_v48) = val_main_v48 (F := F) := by
  show after ops5 (R4 m c) (Proc.devRef .tc main_v48) = _
  after_results
  all_goals rfl
theorem R5_v1 (c : Dev nD) : R5 m c (Proc.devRef .tc main_v1) = val_main_v1 (F := F) (a1 m c) := by
  show after ops5 (R4 m c) (Proc.devRef .tc main_v1) = _
  after_results
  exact R4_v1 m c
theorem R5_v3 (c : Dev nD) : R5 m c (Proc.devRef .tc main_v3) = val_main_v3 (F := F) (a1 m c) := by
  show after ops5 (R4 m c) (Proc.devRef .tc main_v3) = _
  after_results
  exact R4_v3 m c
/-! ### Stretch 6: the second layer's node lists and degrees -/
theorem R6_v49 (c : Dev nD) : R6 m c (Proc.devRef .tc main_v49) = val_main_v49 (F := F) (a1 m c) := by
  show after ops6 (R5 m c) (Proc.devRef .tc main_v49) = _
  after_results
  rw [R5_v1, R5_v48]
  rfl
theorem R6_v50 (c : Dev nD) : R6 m c (Proc.devRef .tc main_v50) = val_main_v50 (F := F) (a1 m c) := by
  show after ops6 (R5 m c) (Proc.devRef .tc main_v50) = _
  after_results
  rw [R5_v3, R5_v48]
  rfl
theorem R6_v56 (c : Dev nD) : R6 m c (Proc.devRef .tc main_v56) = val_main_v56 (F := F) (a1 m c) := by
  show after ops6 (R5 m c) (Proc.devRef .tc main_v56) = _
  after_results
  rw [R5_v3, R5_v48]
  rfl
theorem R6_v57 (c : Dev nD) : R6 m c (Proc.devRef .tc main_v57) = val_main_v57 (F := F) (a1 m c) := by
  show after ops6 (R5 m c) (Proc.devRef .tc main_v57) = _
  after_results
  rw [R5_v3, R5_v48]
  rfl
theorem R6_cst_12 (c : Dev nD) : R6 m c (Proc.devRef .tc main_cst_12) = val_main_cst_12 (F := F) := by
  show after ops6 (R5 m c) (Proc.devRef .tc main_cst_12) = _
  after_results
  all_goals rfl
theorem R6_v47 (c : Dev nD) : R6 m c (Proc.devRef .tc main_v47) = val_main_v47 (F := F) (a0 m c) (a1 m c) (a2 m c) (a3 m c) := by
  show after ops6 (R5 m c) (Proc.devRef .tc main_v47) = _
  after_results
  exact R5_v47 m c
/-! ### Stretch 7: the select again -/
theorem R7_v58 (c : Dev nD) : R7 m c (Proc.devRef .tc main_v58) = val_main_v58 (F := F) (a1 m c) := by
  show after ops7 (R6 m c) (Proc.devRef .tc main_v58) = _
  after_results
  rw [R6_v56, R6_v57, R6_cst_12]
  rfl
theorem R7_v47 (c : Dev nD) : R7 m c (Proc.devRef .tc main_v47) = val_main_v47 (F := F) (a0 m c) (a1 m c) (a2 m c) (a3 m c) := by
  show after ops7 (R6 m c) (Proc.devRef .tc main_v47) = _
  after_results
  exact R6_v47 m c
theorem R7_v49 (c : Dev nD) : R7 m c (Proc.devRef .tc main_v49) = val_main_v49 (F := F) (a1 m c) := by
  show after ops7 (R6 m c) (Proc.devRef .tc main_v49) = _
  after_results
  exact R6_v49 m c
theorem R7_v50 (c : Dev nD) : R7 m c (Proc.devRef .tc main_v50) = val_main_v50 (F := F) (a1 m c) := by
  show after ops7 (R6 m c) (Proc.devRef .tc main_v50) = _
  after_results
  exact R6_v50 m c
/-! ### Stretch 8: the edge weights again -/
theorem R8_v73 (c : Dev nD) : R8 m c (Proc.devRef .tc main_v73) = val_main_v73 (F := F) (a1 m c) := by
  show after ops8 (R7 m c) (Proc.devRef .tc main_v73) = _
  after_results_simp
  rw [R7_v58, R7_v49, R7_v50]
  rfl
theorem R8_v47 (c : Dev nD) : R8 m c (Proc.devRef .tc main_v47) = val_main_v47 (F := F) (a0 m c) (a1 m c) (a2 m c) (a3 m c) := by
  show after ops8 (R7 m c) (Proc.devRef .tc main_v47) = _
  after_results
  exact R7_v47 m c
theorem R8_v49 (c : Dev nD) : R8 m c (Proc.devRef .tc main_v49) = val_main_v49 (F := F) (a1 m c) := by
  show after ops8 (R7 m c) (Proc.devRef .tc main_v49) = _
  after_results
  exact R7_v49 m c
theorem R8_v50 (c : Dev nD) : R8 m c (Proc.devRef .tc main_v50) = val_main_v50 (F := F) (a1 m c) := by
  show after ops8 (R7 m c) (Proc.devRef .tc main_v50) = _
  after_results
  exact R7_v50 m c
theorem R8_arg4 (c : Dev nD) : R8 m c (Proc.devRef .tc main_arg4) = a4 m c := by
  show after ops8 (after ops7 (after ops6 (after ops5 (after ops4 (after ops3 (after ops2 (after ops1 (launchContents m c)))))))) (Proc.devRef .tc main_arg4) = _
  after_results
  all_goals rfl
/-! ### Stretch 9: the second product and its aggregation -/
theorem R9_v87 (c : Dev nD) : R9 m c (Proc.devRef .tc main_v87) = val_main_v87 (F := F) (a0 m c) (a1 m c) (a2 m c) (a3 m c) (a4 m c) := by
  show after ops9 (R8 m c) (Proc.devRef .tc main_v87) = _
  after_results_simp
  rw [R8_v50, R8_v47, R8_arg4, R8_v49, R8_v73]
  rfl
theorem R9_arg5 (c : Dev nD) : R9 m c (Proc.devRef .tc main_arg5) = a5 m c := by
  show after ops9 (after ops8 (after ops7 (after ops6 (after ops5 (after ops4 (after ops3 (after ops2 (after ops1 (launchContents m c))))))))) (Proc.devRef .tc main_arg5) = _
  after_results
  all_goals rfl
/-! ### Stretch 10: the output bias -/
theorem R10_v90 (c : Dev nD) : R10 m c (Proc.devRef .tc main_v90) = val_main_v90 (F := F) (a0 m c) (a1 m c) (a2 m c) (a3 m c) (a4 m c) (a5 m c) := by
  show after ops10 (R9 m c) (Proc.devRef .tc main_v90) = _
  after_results
  rw [R9_v87, R9_arg5]
  rfl
/-! ### Stretches 11 to 14: the log-softmax, a few operations at a time (the row maximum; the shifted rows; the sum of exponentials; the logarithm and the last difference) -/
theorem R11_call3_v2 (c : Dev nD) : R11 m c (Proc.devRef .tc main_call3_v2) = val_main_call3_v2 (F := F) (a0 m c) (a1 m c) (a2 m c) (a3 m c) (a4 m c) (a5 m c) := by
  show after ops11 (R10 m c) (Proc.devRef .tc main_call3_v2) = _
  after_results
  rw [R10_v90]
  simp only [cast_cast_cancel]
  rfl
theorem R11_v90 (c : Dev nD) : R11 m c (Proc.devRef .tc main_v90) = val_main_v90 (F := F) (a0 m c) (a1 m c) (a2 m c) (a3 m c) (a4 m c) (a5 m c) := by
  show after ops11 (R10 m c) (Proc.devRef .tc main_v90) = _
  after_results
  exact R10_v90 m c
theorem R12_call3_v5 (c : Dev nD) : R12 m c (Proc.devRef .tc main_call3_v5) = val_main_call3_v5 (F := F) (a0 m c) (a1 m c) (a2 m c) (a3 m c) (a4 m c) (a5 m c) := by
  show after ops12 (R11 m c) (Proc.devRef .tc main_call3_v5) = _
  after_results
  rw [R11_v90, R11_call3_v2]
  rfl
theorem R13_call3_v8 (c : Dev nD) : R13 m c (Proc.devRef .tc main_call3_v8) = val_main_call3_v8 (F := F) (a0 m c) (a1 m c) (a2 m c) (a3 m c) (a4 m c) (a5 m c) := by
  show after ops13 (R12 m c) (Proc.devRef .tc main_call3_v8) = _
  after_results
  rw [R12_call3_v5]
  rfl
theorem R13_call3_v5 (c : Dev nD) : R13 m c (Proc.devRef .tc main_call3_v5) = val_main_call3_v5 (F := F) (a0 m c) (a1 m c) (a2 m c) (a3 m c) (a4 m c) (a5 m c) := by
  show after ops13 (R12 m c) (Proc.devRef .tc main_call3_v5) = _
  after_results
  exact R12_call3_v5 m c
theorem R14_v91 (c : Dev nD) : R14 m c (Proc.devRef .tc main_v91) = val_main_v91 (F := F) (a0 m c) (a1 m c) (a2 m c) (a3 m c) (a4 m c) (a5 m c) := by
  show after ops14 (R13 m c) (Proc.devRef .tc main_v91) = _
  after_results
  rw [R13_call3_v5, R13_call3_v8]
  rfl

/-! ## The run -/

/-- The whole list leaves the result buffer at the last stage of the arguments. -/
theorem result_at (c : Dev nD) :
    after (ops : List (HloOp τ sig (Elt F))) (launchContents m c) (Proc.devRef .tc main_v91) = val_main_v91 (F := F) (a0 m c) (a1 m c) (a2 m c) (a3 m c) (a4 m c) (a5 m c) := by
  rw [ops_split]
  simp only [after_append]
  exact R14_v91 m c

set_option maxRecDepth 8192 in
set_option maxHeartbeats 53600000 in
/-- On every device, from any memory with zero counters: every weakly fair execution of the reference's @main
    terminates with the result at its stage function of the arguments and the arguments unchanged. -/
theorem run (ρ : Dev nD → PrngReg) :
    θ_run defs (onTc (τ := τ) (main (F := F))) ⟨m, fun _ => 0, ρ⟩ fun r => ∀ c : Dev nD,
      r.2.mem ((c.tc : Thread nD τ).loc main_v91) = val_main_v91 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v91).trans (result_at m c),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl)⟩)
    (run_seq scopedRefs_eq scopedSems_eq defs main (fun _ => ops) main_eq (fun _ => ops_sub) m ρ)

end Cert.ReferenceIdeal.RunStages

end
-- ==== Proof.lean ====
/-
  A two-layer graph convolution with a row-wise log-softmax, as three Pallas kernels (the two dense products, tiled
  over rows, and the bias + log-softmax, tiled over rows) among jax's own gather / scatter-add aggregation, against the
  plain jax reference.

  Both programs compute, of the node features `x`, the edge list `e`, weights `W₁, W₂` and biases `b₁, b₂`,

      logSoftmaxRows ( P₄₀ e ( relu ( P₁₆ e (x · W₁) + b₁ ) · W₂ ) + b₂ ),

  where `P e h` gathers the rows of `h` by source node, scales each by the symmetric degree weight and scatter-adds
  them by destination node, self loops appended. `P` is the same chain of host operations in both programs and is
  never opened (the kernel program computes the node lists and weights once, the reference once per layer: the
  same arrays). What differs is the dense part. At the ideal values a change of float format is the identity, a
  `tpu.matmul` into a zero accumulator and a host `dot_general` are the same sum over the contracted axis, a lane
  reduction and a host reduction are the same fold, and `max(−∞, ·)` is the identity; and each dense stage works row
  by row, so a row tile of the result is the stage of the same row tile of the input, and the tiles cover the rows.
  No algebraic law needs finiteness: the precondition is never opened.

  Frames: the two kernel programs' are the generated certificates; the reference's is its run with the result dropped.
  The idealization rewrote nothing, so `preserves` is `True`.
-/
import proofs.«112764_j29540785062187_1_alg».proof.Defs
import proofs.«112764_j29540785062187_1_alg».proof.Proof.Gen.Kernel
import proofs.«112764_j29540785062187_1_alg».proof.Proof.Gen.Kernel.Skeleton
import proofs.«112764_j29540785062187_1_alg».proof.Proof.Gen.Kernel.Launch
import proofs.«112764_j29540785062187_1_alg».proof.Proof.Gen.Kernel.Points
import proofs.«112764_j29540785062187_1_alg».proof.Proof.Gen.Kernel.Frame
import proofs.«112764_j29540785062187_1_alg».proof.Proof.Gen.KernelIdeal
import proofs.«112764_j29540785062187_1_alg».proof.Proof.Gen.KernelIdeal.Skeleton
import proofs.«112764_j29540785062187_1_alg».proof.Proof.Gen.KernelIdeal.Launch
import proofs.«112764_j29540785062187_1_alg».proof.Proof.Gen.KernelIdeal.Points
import proofs.«112764_j29540785062187_1_alg».proof.Proof.Gen.KernelIdeal.Frame
import proofs.«112764_j29540785062187_1_alg».proof.Proof.Gen.ReferenceIdeal
import proofs.«112764_j29540785062187_1_alg».proof.Proof.Gen.Pre_finite_inputs
import proofs.«112764_j29540785062187_1_alg».proof.Proof.KernelRun
import proofs.«112764_j29540785062187_1_alg».proof.Proof.KernelBridge
import proofs.«112764_j29540785062187_1_alg».proof.Proof.RefRunStages
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.RunStages.run (F := Ideal) m ρ)

/-- Both programs end with the reference's result function of the (agreeing) arguments in their result arrays:
    the kernel program by its run read back through its three regions, the reference by its run. -/
theorem algebraic : Cert.algebraic_KernelIdeal_ReferenceIdeal := by
  intro m ρ m' ρ' _ hagree
  refine ⟨fun c => Cert.ReferenceIdeal.ReadP.val_main_v91 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Bridge.result_eq m ρ c), (h c).2⟩)
      (Cert.KernelIdeal.GenP.run_named (F := Ideal) m ρ)
  · refine (θ_run Cert.ReferenceIdeal.defs _ _).mono (fun r h c => ⟨(h c).1.trans ?_, (h c).2⟩)
      (Cert.ReferenceIdeal.RunStages.run (F := Ideal) m' ρ')
    rw [(hagree c).1, (hagree c).2.1, (hagree c).2.2.1, (hagree c).2.2.2.1,
      (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
